-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x48x152x160 : Shape := ⟨4, ![32, 48, 152, 160]⟩
abbrev S32x512x256 : Shape := ⟨3, ![32, 512, 256]⟩
abbrev S32x512 : Shape := ⟨2, ![32, 512]⟩
abbrev S32x512x2 : Shape := ⟨3, ![32, 512, 2]⟩
abbrev S256x32 : Shape := ⟨2, ![256, 32]⟩
abbrev S32 : Shape := ⟨1, ![32]⟩
abbrev S_ : Shape := ⟨0, ![]⟩

class Facts : Prop where
  bcast_S_S32x48x152x160 : S_.BroadcastsInDim S32x48x152x160 (![] : Fin 0 → Fin S32x48x152x160.rank)
  reducesTo_S32x48x152x160_S_d0_1_2_3 : S32x48x152x160.ReducesTo [0, 1, 2, 3] S_
  h_S_ : 0 < S_.numel
  bcast_S_S32x512x256 : S_.BroadcastsInDim S32x512x256 (![] : Fin 0 → Fin S32x512x256.rank)
  reducesTo_S32x512x256_S_d0_1_2 : S32x512x256.ReducesTo [0, 1, 2] S_
  bcast_S_S32x512 : S_.BroadcastsInDim S32x512 (![] : Fin 0 → Fin S32x512.rank)
  reducesTo_S32x512_S_d0_1 : S32x512.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S32x48x152x160 .f32) (main_arg1 : FVec F S32x512x256 .f32) (main_arg2 : FVec F S32x512 .f32) (main_arg3 : IVec S32x512x2 32) (main_arg4 : FVec F S256x32 .f32) (main_arg5 : FVec F S32 .f32) : IVec S_ 1 :=
  let main_v0 : FVec F S32x48x152x160 .f32 := Host.absf main_arg0
  let main_cst : FVec F S_ .f32 := constant S_ .f32 0x7F800000#32
  let main_v1 : FVec F S32x48x152x160 .f32 := broadcastInDim S32x48x152x160 ![] bcast_S_S32x48x152x160 main_cst
  let main_v2 : IVec S32x48x152x160 1 := cmpf .olt main_v0 main_v1
  let main_c : IVec S_ 1 := constantI S_ 1 1#1
  let main_v3 : IVec S_ 1 := (fun x v => Host.reduce IntOp.andi x v reducesTo_S32x48x152x160_S_d0_1_2_3 h_S_) main_v2 main_c
  let main_v4 : FVec F S32x512x256 .f32 := Host.absf main_arg1
  let main_cst_0 : FVec F S_ .f32 := constant S_ .f32 0x7F800000#32
  let main_v5 : FVec F S32x512x256 .f32 := broadcastInDim S32x512x256 ![] bcast_S_S32x512x256 main_cst_0
  let main_v6 : IVec S32x512x256 1 := cmpf .olt main_v4 main_v5
  let main_c_1 : IVec S_ 1 := constantI S_ 1 1#1
  let main_v7 : IVec S_ 1 := (fun x v => Host.reduce IntOp.andi x v reducesTo_S32x512x256_S_d0_1_2 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S256x32 .f32 := Host.absf main_arg4
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg5 main_v13 main_v16
-- ==== Kernel.lean ====
abbrev S32x48x152x160 : Shape := ⟨4, ![32, 48, 152, 160]⟩
abbrev S32x512x256 : Shape := ⟨3, ![32, 512, 256]⟩
abbrev S32x512 : Shape := ⟨2, ![32, 512]⟩
abbrev S32x512x2 : Shape := ⟨3, ![32, 512, 2]⟩
abbrev S256x32 : Shape := ⟨2, ![256, 32]⟩
abbrev S32 : Shape := ⟨1, ![32]⟩
abbrev S32x48x24320 : Shape := ⟨3, ![32, 48, 24320]⟩
abbrev S32x512x1 : Shape := ⟨3, ![32, 512, 1]⟩
abbrev S_ : Shape := ⟨0, ![]⟩
abbrev S32x80x24320 : Shape := ⟨3, ![32, 80, 24320]⟩
abbrev S1x48x4864 : Shape := ⟨3, ![1, 48, 4864]⟩
abbrev S1x512x256 : Shape := ⟨3, ![1, 512, 256]⟩
abbrev S1x512x1 : Shape := ⟨3, ![1, 512, 1]⟩
abbrev S1x80x4864 : Shape := ⟨3, ![1, 80, 4864]⟩
abbrev S512x32 : Shape := ⟨2, ![512, 32]⟩
abbrev S512x256 : Shape := ⟨2, ![512, 256]⟩
abbrev S1x32 : Shape := ⟨2, ![1, 32]⟩
abbrev S512x1 : Shape := ⟨2, ![512, 1]⟩
abbrev S1x4864 : Shape := ⟨2, ![1, 4864]⟩
abbrev S512x4864 : Shape := ⟨2, ![512, 4864]⟩
abbrev S32x4864 : Shape := ⟨2, ![32, 4864]⟩
abbrev S48x4864 : Shape := ⟨2, ![48, 4864]⟩
abbrev S1x32x4864 : Shape := ⟨3, ![1, 32, 4864]⟩
abbrev S32x80x152x160 : Shape := ⟨4, ![32, 80, 152, 160]⟩

abbrev nBuf : Space → Nat
  | .hbm => 35
  | .vmem => 13
  | .smem => 0
  | _ => 0

abbrev bufTy : (tb : Table) → Fin (tcTables nBuf tb) → BufTy
  | .hbm, ⟨0, _⟩ => ⟨S32x48x152x160, .f32⟩
  | .hbm, ⟨1, _⟩ => ⟨S32x512x256, .f32⟩
  | .hbm, ⟨2, _⟩ => ⟨S32x512, .f32⟩
  | .hbm, ⟨3, _⟩ => ⟨S32x512x2, .i32⟩
  | .hbm, ⟨4, _⟩ => ⟨S256x32, .f32⟩
  | .hbm, ⟨5, _⟩ => ⟨S32, .f32⟩
  | .hbm, ⟨6, _⟩ => ⟨S32x48x24320, .f32⟩
  | .hbm, ⟨7, _⟩ => ⟨S32x512x1, .f32⟩
  | .hbm, ⟨8, _⟩ => ⟨S32x512x1, .i32⟩
  | .hbm, ⟨9, _⟩ => ⟨S32x512, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S32x512, .i32⟩
  | .hbm, ⟨14, _⟩ => ⟨S32x512, .i32⟩
  | .hbm, ⟨15, _⟩ => ⟨S_, .i32⟩
  | .hbm, ⟨16, _⟩ => ⟨S32x512, .i32⟩
  | .hbm, ⟨17, _⟩ => ⟨S32x512, .i32⟩
  | .hbm, ⟨18, _⟩ => ⟨S32x512x1, .i32⟩
  | .hbm, ⟨19, _⟩ => ⟨S32x512, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S32x512, .i32⟩
  | .hbm, ⟨24, _⟩ => ⟨S32x512, .i32⟩
  | .hbm, ⟨25, _⟩ => ⟨S_, .i32⟩
  | .hbm, ⟨26, _⟩ => ⟨S32x512, .i32⟩
  | .hbm, ⟨27, _⟩ => ⟨S32x512, .i32⟩
  | .hbm, ⟨28, _⟩ => ⟨S_, .i32⟩
  | .hbm, ⟨29, _⟩ => ⟨S32x512, .i32⟩
  | .hbm, ⟨30, _⟩ => ⟨S32x512, .i32⟩
  | .hbm, ⟨31, _⟩ => ⟨S32x512, .i32⟩
  | .hbm, ⟨32, _⟩ => ⟨S32x512x1, .i32⟩
  | .hbm, ⟨33, _⟩ => ⟨S32x80x24320, .f32⟩
  | .hbm, ⟨34, _⟩ => ⟨S32x80x152x160, .f32⟩
  | .local _ .vmem, ⟨0, _⟩ => ⟨S1x48x4864, .f32⟩
  | .local _ .vmem, ⟨1, _⟩ => ⟨S1x48x4864, .f32⟩
  | .local _ .vmem, ⟨2, _⟩ => ⟨S1x512x256, .f32⟩
  | .local _ .vmem, ⟨3, _⟩ => ⟨S1x512x256, .f32⟩
  | .local _ .vmem, ⟨4, _⟩ => ⟨S256x32, .f32⟩
  | .local _ .vmem, ⟨5, _⟩ => ⟨S32, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .i32⟩
  | .local _ .vmem, ⟨9, _⟩ => ⟨S1x512x1, .i32⟩
  | .local _ .vmem, ⟨10, _⟩ => ⟨S1x80x4864, .f32⟩
  | .local _ .vmem, ⟨11, _⟩ => ⟨S1x80x4864, .f32⟩
  | .local _ .vmem, ⟨12, _⟩ => ⟨S512x32, .f32⟩
  | _, _ => ⟨S32x48x152x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v7 : Ref sig .tc := ⟨.hbm, 27, rfl⟩
abbrev main_c_3 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x48x4864 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x80x4864 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S32x48x152x160_S32x48x24320 : S32x48x152x160.ShapeCasts S32x48x24320
  shapeCasts_S32x512_S32x512x1 : S32x512.ShapeCasts S32x512x1
  slices_S32x512x2_S32x512x1_0_0_0 : S32x512x2.Slices ![0, 0, 0] S32x512x1
  shapeCasts_S32x512x1_S32x512 : S32x512x1.ShapeCasts S32x512
  bcast_S_S32x512 : S_.BroadcastsInDim S32x512 (![] : Fin 0 → Fin S32x512.rank)
  slices_S32x512x2_S32x512x1_0_0_1 : S32x512x2.Slices ![0, 0, 1] S32x512x1
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x32 : S512x1.Broadcasts S512x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  iota_S1x4864_d1_w32 : S1x4864.Iotas .tc 32 [1]
  broadcasts_S512x1_S512x4864 : S512x1.Broadcasts S512x4864
  broadcasts_S1x4864_S512x4864 : S1x4864.Broadcasts S512x4864
  natLt_1_32 : 1 < 32
  inb_S1x48x4864_S1x48x4864_0_0_0 : ∀ a, (![0, 0, 0] : Fin 3 → Nat) a + S1x48x4864.size a ≤ S1x48x4864.size a
  h_S1x48x4864 : 0 < S1x48x4864.numel
  shapeCasts_S1x48x4864_S48x4864 : S1x48x4864.ShapeCasts S48x4864
  inb_S1x80x4864_S1x48x4864_0_0_0 : ∀ a, (![0, 0, 0] : Fin 3 → Nat) a + S1x48x4864.size a ≤ S1x80x4864.size a
  shapeCasts_S48x4864_S1x48x4864 : S48x4864.ShapeCasts S1x48x4864
  inb_S1x80x4864_S1x32x4864_0_48_0 : ∀ a, (![0, 48, 0] : Fin 3 → Nat) a + S1x32x4864.size a ≤ S1x80x4864.size a
  h_S1x32x4864 : 0 < S1x32x4864.numel
  shapeCasts_S1x32x4864_S32x4864 : S1x32x4864.ShapeCasts S32x4864
  shapeCasts_S32x4864_S1x32x4864 : S32x4864.ShapeCasts S1x32x4864
  shapeCasts_S32x80x24320_S32x80x152x160 : S32x80x24320.ShapeCasts S32x80x152x160
  dot_S512x256_S256x32_S512x32_1_0_0_1_n_n_wf : DotDims.WF S512x256 S256x32 S512x32 [1] [0] [0] [1] [] []
  dot_S512x32_S512x4864_S32x4864_0_0_1_1_n_n_wf : DotDims.WF S512x32 S512x4864 S32x4864 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x48x4864.size a ≤ S32x48x24320.size a
  hwx0_0 : ∀ i : grid0.Coords, EltTy.bits .f32 = 32 ∨ (Rect.block (s := S32x48x24320) S1x48x4864.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S32x512x256.size a
  hwx0_1 : ∀ i : grid0.Coords, EltTy.bits .f32 = 32 ∨ (Rect.block (s := S32x512x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S32x512x1.size a
  hwx0_4 : ∀ i : grid0.Coords, EltTy.bits .f32 = 32 ∨ (Rect.block (s := S32x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S32x512x1.size a
  hwx0_5 : ∀ i : grid0.Coords, EltTy.bits .i32 = 32 ∨ (Rect.block (s := S32x512x1) S1x512x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x80x4864.size a ≤ S32x80x24320.size a
  hwx0_6 : ∀ i : grid0.Coords, EltTy.bits .f32 = 32 ∨ (Rect.block (s := S32x80x24320) S1x80x4864.size (cc0_transform_6 i) (hinb0_6 i)).WholeWords (EltTy.packing .f32)

variable [Facts₀]

def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf
def dot_S512x32_S512x4864_S32x4864_0_0_1_1_n_n : DotDims S512x32 S512x4864 S32x4864 where
  lhsContracting := [0]
  rhsContracting := [0]
  lhsNonContracting := [1]
  rhsNonContracting := [1]
  lhsBatch := []
  rhsBatch := []
  wf := dot_S512x32_S512x4864_S32x4864_0_0_1_1_n_n_wf

abbrev win0_0 : Pipeline.Window sig grid0 :=
  Pipeline.Window.ofSpec (Memref.whole main_v0) S1x48x4864.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x80x4864.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x48x152x160 : Shape := ⟨4, ![32, 48, 152, 160]⟩
abbrev S32x512x256 : Shape := ⟨3, ![32, 512, 256]⟩
abbrev S32x512 : Shape := ⟨2, ![32, 512]⟩
abbrev S32x512x2 : Shape := ⟨3, ![32, 512, 2]⟩
abbrev S256x32 : Shape := ⟨2, ![256, 32]⟩
abbrev S32 : Shape := ⟨1, ![32]⟩
abbrev S32x512x32 : Shape := ⟨3, ![32, 512, 32]⟩
abbrev S1x1x32 : Shape := ⟨3, ![1, 1, 32]⟩
abbrev S_ : Shape := ⟨0, ![]⟩
abbrev S32x512x1 : Shape := ⟨3, ![32, 512, 1]⟩
abbrev S32x1 : Shape := ⟨2, ![32, 1]⟩
abbrev S16384 : Shape := ⟨1, ![16384]⟩
abbrev S16384x32 : Shape := ⟨2, ![16384, 32]⟩
abbrev S778240x32 : Shape := ⟨2, ![778240, 32]⟩
abbrev S16384x1 : Shape := ⟨2, ![16384, 1]⟩
abbrev S32x152x160x32 : Shape := ⟨4, ![32, 152, 160, 32]⟩
abbrev S32x32x152x160 : Shape := ⟨4, ![32, 32, 152, 160]⟩
abbrev S32x80x152x160 : Shape := ⟨4, ![32, 80, 152, 160]⟩

abbrev nBuf : Space → Nat
  | .hbm => 63
  | .vmem => 0
  | .smem => 0
  | _ => 0

abbrev bufTy : (tb : Table) → Fin (tcTables nBuf tb) → BufTy
  | .hbm, ⟨0, _⟩ => ⟨S32x48x152x160, .f32⟩
  | .hbm, ⟨1, _⟩ => ⟨S32x512x256, .f32⟩
  | .hbm, ⟨2, _⟩ => ⟨S32x512, .f32⟩
  | .hbm, ⟨3, _⟩ => ⟨S32x512x2, .i32⟩
  | .hbm, ⟨4, _⟩ => ⟨S256x32, .f32⟩
  | .hbm, ⟨5, _⟩ => ⟨S32, .f32⟩
  | .hbm, ⟨6, _⟩ => ⟨S32x512x32, .f32⟩
  | .hbm, ⟨7, _⟩ => ⟨S1x1x32, .f32⟩
  | .hbm, ⟨8, _⟩ => ⟨S32x512x32, .f32⟩
  | .hbm, ⟨9, _⟩ => ⟨S32x512x32, .f32⟩
  | .hbm, ⟨10, _⟩ => ⟨S_, .f32⟩
  | .hbm, ⟨11, _⟩ => ⟨S32x512x32, .f32⟩
  | .hbm, ⟨12, _⟩ => ⟨S32x512x32, .f32⟩
  | .hbm, ⟨13, _⟩ => ⟨S32x512x1, .f32⟩
  | .hbm, ⟨14, _⟩ => ⟨S32x512x32, .f32⟩
  | .hbm, ⟨15, _⟩ => ⟨S32x512x32, .f32⟩
  | .hbm, ⟨16, _⟩ => ⟨S32x512x1, .i32⟩
  | .hbm, ⟨17, _⟩ => ⟨S32x512, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S32x512, .i32⟩
  | .hbm, ⟨22, _⟩ => ⟨S32x512, .i32⟩
  | .hbm, ⟨23, _⟩ => ⟨S_, .i32⟩
  | .hbm, ⟨24, _⟩ => ⟨S32x512, .i32⟩
  | .hbm, ⟨25, _⟩ => ⟨S32x512, .i32⟩
  | .hbm, ⟨26, _⟩ => ⟨S32x512x1, .i32⟩
  | .hbm, ⟨27, _⟩ => ⟨S32x512, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S32x512, .i32⟩
  | .hbm, ⟨32, _⟩ => ⟨S32x512, .i32⟩
  | .hbm, ⟨33, _⟩ => ⟨S_, .i32⟩
  | .hbm, ⟨34, _⟩ => ⟨S32x512, .i32⟩
  | .hbm, ⟨35, _⟩ => ⟨S32x512, .i32⟩
  | .hbm, ⟨36, _⟩ => ⟨S_, .i32⟩
  | .hbm, ⟨37, _⟩ => ⟨S32x512, .i32⟩
  | .hbm, ⟨38, _⟩ => ⟨S32x512, .i32⟩
  | .hbm, ⟨39, _⟩ => ⟨S32x512, .i32⟩
  | .hbm, ⟨40, _⟩ => ⟨S32, .i32⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32x1, .i32⟩
  | .hbm, ⟨45, _⟩ => ⟨S32x512, .i32⟩
  | .hbm, ⟨46, _⟩ => ⟨S32x512, .i32⟩
  | .hbm, ⟨47, _⟩ => ⟨S16384, .i32⟩
  | .hbm, ⟨48, _⟩ => ⟨S16384x32, .f32⟩
  | .hbm, ⟨49, _⟩ => ⟨S_, .f32⟩
  | .hbm, ⟨50, _⟩ => ⟨S778240x32, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S778240x32, .f32⟩
  | .hbm, ⟨60, _⟩ => ⟨S32x152x160x32, .f32⟩
  | .hbm, ⟨61, _⟩ => ⟨S32x32x152x160, .f32⟩
  | .hbm, ⟨62, _⟩ => ⟨S32x80x152x160, .f32⟩
  | _, _ => ⟨S32x48x152x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_c_2 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S32x512x32_0_1_2 : S1x1x32.BroadcastsInDim S32x512x32 (![0, 1, 2] : Fin 3 → Fin S32x512x32.rank)
  bcast_S_S32x512x32 : S_.BroadcastsInDim S32x512x32 (![] : Fin 0 → Fin S32x512x32.rank)
  bcast_S32x512_S32x512x1_0_1 : S32x512.BroadcastsInDim S32x512x1 (![0, 1] : Fin 2 → Fin S32x512x1.rank)
  bcast_S32x512x1_S32x512x32_0_1_2 : S32x512x1.BroadcastsInDim S32x512x32 (![0, 1, 2] : Fin 3 → Fin S32x512x32.rank)
  slices_S32x512x2_S32x512x1_0_0_0 : S32x512x2.Slices ![0, 0, 0] S32x512x1
  shapeCasts_S32x512x1_S32x512 : S32x512x1.ShapeCasts S32x512
  bcast_S_S32x512 : S_.BroadcastsInDim S32x512 (![] : Fin 0 → Fin S32x512.rank)
  slices_S32x512x2_S32x512x1_0_0_1 : S32x512x2.Slices ![0, 0, 1] S32x512x1
  bcast_S_S32 : S_.BroadcastsInDim S32 (![] : Fin 0 → Fin S32.rank)
  bcast_S32_S32x1_0 : S32.BroadcastsInDim S32x1 (![0] : Fin 1 → Fin S32x1.rank)
  bcast_S32x1_S32x512_0_1 : S32x1.BroadcastsInDim S32x512 (![0, 1] : Fin 2 → Fin S32x512.rank)
  shapeCasts_S32x512_S16384 : S32x512.ShapeCasts S16384
  shapeCasts_S32x512x32_S16384x32 : S32x512x32.ShapeCasts S16384x32
  bcast_S_S778240x32 : S_.BroadcastsInDim S778240x32 (![] : Fin 0 → Fin S778240x32.rank)
  bcast_S_S16384 : S_.BroadcastsInDim S16384 (![] : Fin 0 → Fin S16384.rank)
  bcast_S16384_S16384x1_0 : S16384.BroadcastsInDim S16384x1 (![0] : Fin 1 → Fin S16384x1.rank)
  shapeCasts_S778240x32_S32x152x160x32 : S778240x32.ShapeCasts S32x152x160x32
  transposes_S32x152x160x32_S32x32x152x160_0_3_1_2 : S32x152x160x32.Transposes [0, 3, 1, 2] S32x32x152x160
  concatenates_S32x48x152x160_S32x32x152x160_S32x80x152x160_d1 : Shape.Concatenates [S32x48x152x160, S32x32x152x160] S32x80x152x160 1
  dot_S32x512x256_S256x32_S32x512x32_2_0_01_1_n_n_wf : DotDims.WF S32x512x256 S256x32 S32x512x32 [2] [0] [0, 1] [1] [] []
  scatter_S778240x32_S16384x1_S16384x32_1_0_0_1_wf : ScatterDims.WF S778240x32 S16384x1 S16384x32 [1] [0] [0] 1

variable [Facts₀]

def dot_S32x512x256_S256x32_S32x512x32_2_0_01_1_n_n : DotDims S32x512x256 S256x32 S32x512x32 where
  lhsContracting := [2]
  rhsContracting := [0]
  lhsNonContracting := [0, 1]
  rhsNonContracting := [1]
  lhsBatch := []
  rhsBatch := []
  wf := dot_S32x512x256_S256x32_S32x512x32_2_0_01_1_n_n_wf
def scatter_S778240x32_S16384x1_S16384x32_1_0_0_1 : ScatterDims S778240x32 S16384x1 S16384x32 where
  updateWindowDims := [1]
  insertedWindowDims := [0]
  scatterDimsToOperandDims := [0]
  indexVectorDim := 1
  wf := scatter_S778240x32_S16384x1_S16384x32_1_0_0_1_wf

class Facts : Prop extends Facts₀ where

variable [Facts]
-- ==== Proof.KCases.lean ====
/-
  What one run of the kernel body leaves behind.

  The body runs in two ways. At the first tile of a batch it stores the projection block into the scratch buffer, and
  the later reads of the scratch see that block; at the other tiles the scratch holds what the tile before left. In both
  it fills the 80 rows of the output block by two stores: rows 0 to 47 are the spatial block, rows 48 to 79 the scattered
  block computed from the cell words and the scratch. So the output block is one function of the spatial block, the cell
  words and the scratch contents, and read at a row it is the one or the other store's value.
-/
import proofs.«407394_j85899345920647_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a; rfl

/-- The output block after the body: rows 48 to 79 the scattered block of the cell words `x5` and the scratch contents
    `sc` (stored last), rows 0 to 47 the spatial block `x0`. -/
def outBlk (i : grid0.Coords) (x0 : Vec F S1x48x4864 .f32) (x5 : Vec F S1x512x1 .i32) (sc : Vec F S512x32 .f32) :
    Vec F S1x80x4864 .f32 :=
  View.canon
    [(⟨Rect.unit (s := S1x80x4864) ![0, 48, 0] S1x32x4864.size Facts₀.inb_S1x80x4864_S1x32x4864_0_48_0, k0_pay3 i x5 sc⟩ :
        View.Piece (Elt F) S1x80x4864 .f32),
      ⟨Rect.unit (s := S1x80x4864) ![0, 0, 0] S1x48x4864.size Facts₀.inb_S1x80x4864_S1x48x4864_0_0_0, k0_pay2 x0⟩]

/-- At a batch's first tile the scratch ends holding the projection block of the batch's inputs. -/
theorem sout_A (c : Dev nD) (i : grid0.Coords) (arg2 : Memref sig .tc .vmem S1x48x4864 .f32) (harg2 : arg2.IsWhole) (arg3 : Memref sig .tc .vmem S1x512x256 .f32) (harg3 : arg3.IsWhole) (arg4 : Memref sig .tc .vmem S256x32 .f32) (harg4 : arg4.IsWhole) (arg5 : Memref sig .tc .vmem S32 .f32) (harg5 : arg5.IsWhole) (arg6 : Memref sig .tc .vmem S1x512x1 .f32) (harg6 : arg6.IsWhole) (arg7 : Memref sig .tc .vmem S1x512x1 .i32) (harg7 : arg7.IsWhole) (arg8 : Memref sig .tc .vmem S1x80x4864 .f32) (harg8 : arg8.IsWhole) (arg9 : Memref sig .tc .vmem S512x32 .f32) (harg9 : arg9.IsWhole) (hc0 : cond0_0 i)
    (x0 : Vec F S1x48x4864 .f32) (x1 : Vec F S1x512x256 .f32) (x2 : Vec F S256x32 .f32) (x3 : Vec F S32 .f32) (x4 : Vec F S1x512x1 .f32) (x5 : Vec F S1x512x1 .i32) :
    sout0_A_0 c i arg2 harg2 arg3 harg3 arg4 harg4 arg5 harg5 arg6 harg6 arg7 harg7 arg8 harg8 arg9 harg9 hc0 x0 x1 x2 x3 x4 x5
      = k0_pay1 x1 x2 x3 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz2]
  simp only [View.readAt_eq_ld, harg3.read_unread, harg4.read_unread, harg5.read_unread, harg6.read_unread,
    View.ld_unit_zero (S := S1x512x256) hz3, View.ld_unit_zero (S := S256x32) hz2, View.ld_unit_zero (S := S32) hz1,
    View.ld_unit_zero (S := S1x512x1) hz3]

/-- At a batch's first tile the output block is computed from the projection block just stored. -/
theorem out_A (c : Dev nD) (i : grid0.Coords) (arg2 : Memref sig .tc .vmem S1x48x4864 .f32) (harg2 : arg2.IsWhole) (arg3 : Memref sig .tc .vmem S1x512x256 .f32) (harg3 : arg3.IsWhole) (arg4 : Memref sig .tc .vmem S256x32 .f32) (harg4 : arg4.IsWhole) (arg5 : Memref sig .tc .vmem S32 .f32) (harg5 : arg5.IsWhole) (arg6 : Memref sig .tc .vmem S1x512x1 .f32) (harg6 : arg6.IsWhole) (arg7 : Memref sig .tc .vmem S1x512x1 .i32) (harg7 : arg7.IsWhole) (arg8 : Memref sig .tc .vmem S1x80x4864 .f32) (harg8 : arg8.IsWhole) (arg9 : Memref sig .tc .vmem S512x32 .f32) (harg9 : arg9.IsWhole) (hc0 : cond0_0 i)
    (x0 : Vec F S1x48x4864 .f32) (x1 : Vec F S1x512x256 .f32) (x2 : Vec F S256x32 .f32) (x3 : Vec F S32 .f32) (x4 : Vec F S1x512x1 .f32) (x5 : Vec F S1x512x1 .i32) :
    out0_A_6 c i arg2 harg2 arg3 harg3 arg4 harg4 arg5 harg5 arg6 harg6 arg7 harg7 arg8 harg8 arg9 harg9 hc0 x0 x1 x2 x3 x4 x5
      = outBlk i x0 x5 (k0_pay1 x1 x2 x3 x4) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A outBlk
  dsimp only
  sl_unfold_words
  simp only [View.readCov_unit_zero (S := S512x32) _ hz2, View.readAt_eq_ld, harg2.read_unread, harg3.read_unread,
    harg4.read_unread, harg5.read_unread, harg6.read_unread, harg7.read_unread,
    View.ld_unit_zero (S := S1x512x256) hz3, View.ld_unit_zero (S := S256x32) hz2, View.ld_unit_zero (S := S32) hz1,
    View.ld_unit_zero (S := S1x512x1) hz3, View.ld_unit_zero (S := S1x48x4864) hz3]

/-- At the other tiles the output block is computed from what the scratch held. -/
theorem out_B (c : Dev nD) (i : grid0.Coords) (arg2 : Memref sig .tc .vmem S1x48x4864 .f32) (harg2 : arg2.IsWhole) (arg3 : Memref sig .tc .vmem S1x512x256 .f32) (harg3 : arg3.IsWhole) (arg4 : Memref sig .tc .vmem S256x32 .f32) (harg4 : arg4.IsWhole) (arg5 : Memref sig .tc .vmem S32 .f32) (harg5 : arg5.IsWhole) (arg6 : Memref sig .tc .vmem S1x512x1 .f32) (harg6 : arg6.IsWhole) (arg7 : Memref sig .tc .vmem S1x512x1 .i32) (harg7 : arg7.IsWhole) (arg8 : Memref sig .tc .vmem S1x80x4864 .f32) (harg8 : arg8.IsWhole) (arg9 : Memref sig .tc .vmem S512x32 .f32) (harg9 : arg9.IsWhole) (hc0 : ¬cond0_0 i)
    (x0 : Vec F S1x48x4864 .f32) (x1 : Vec F S1x512x256 .f32) (x2 : Vec F S256x32 .f32) (x3 : Vec F S32 .f32) (x4 : Vec F S1x512x1 .f32) (x5 : Vec F S1x512x1 .i32) (xs0 : Vec F S512x32 .f32) :
    out0_B_6 c i arg2 harg2 arg3 harg3 arg4 harg4 arg5 harg5 arg6 harg6 arg7 harg7 arg8 harg8 arg9 harg9 hc0 x0 x1 x2 x3 x4 x5 xs0
      = outBlk i x0 x5 xs0 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B outBlk
  dsimp only
  sl_unfold_words
  simp only [View.readAt_eq_ld, harg2.read_unread, harg7.read_unread, harg9.read_unread,
    View.ld_unit_zero (S := S512x32) hz2, View.ld_unit_zero (S := S1x512x1) hz3, View.ld_unit_zero (S := S1x48x4864) hz3]

/-- Rows 0 to 47 of the output block are the spatial store's value. -/
theorem outBlk_lo (i : grid0.Coords) (x0 : Vec F S1x48x4864 .f32) (x5 : Vec F S1x512x1 .i32) (sc : Vec F S512x32 .f32)
    (ch : Fin 48) (l : Fin 4864) :
    outBlk i x0 x5 sc (ix3 (0 : Fin 1) (⟨ch.val, by have := ch.isLt; omega⟩ : Fin 80) l) = k0_pay2 x0 (ix3 (0 : Fin 1) ch l) := by
  unfold outBlk
  rw [View.canon_cons_of_not_mem]
  · have e : (Rect.unit (s := S1x80x4864) ![0, 0, 0] S1x48x4864.size Facts₀.inb_S1x80x4864_S1x48x4864_0_0_0).emb
        (ix3 (0 : Fin 1) ch l) = ix3 (0 : Fin 1) (⟨ch.val, by have := ch.isLt; omega⟩ : Fin 80) l := by
      funext a; apply Fin.ext
      match a with
      | ⟨0, _⟩ => show 0 + 1 * 0 = 0; omega
      | ⟨1, _⟩ => show 0 + 1 * ch.val = ch.val; omega
      | ⟨2, _⟩ => show 0 + 1 * l.val = l.val; omega
    rw [← e]
    exact View.canon_cons_emb _ _ _ _
  · rw [Rect.mem_set_unit]
    intro h
    have h1 := (h (1 : Fin 3)).1
    have : (48 : Nat) ≤ ch.val := h1
    have := ch.isLt
    omega

/-- Rows 48 to 79 of the output block are the scattered store's value. -/
theorem outBlk_hi (i : grid0.Coords) (x0 : Vec F S1x48x4864 .f32) (x5 : Vec F S1x512x1 .i32) (sc : Vec F S512x32 .f32)
    (e : Fin 32) (l : Fin 4864) :
    outBlk i x0 x5 sc (ix3 (0 : Fin 1) (⟨48 + e.val, by have := e.isLt; omega⟩ : Fin 80) l) = k0_pay3 i x5 sc (ix3 (0 : Fin 1) e l) := by
  unfold outBlk
  have he : (Rect.unit (s := S1x80x4864) ![0, 48, 0] S1x32x4864.size Facts₀.inb_S1x80x4864_S1x32x4864_0_48_0).emb
      (ix3 (0 : Fin 1) e l) = ix3 (0 : Fin 1) (⟨48 + e.val, by have := e.isLt; omega⟩ : Fin 80) l := by
    funext a; apply Fin.ext
    match a with
    | ⟨0, _⟩ => show 0 + 1 * 0 = 0; omega
    | ⟨1, _⟩ => show 48 + 1 * e.val = 48 + e.val; omega
    | ⟨2, _⟩ => show 0 + 1 * l.val = l.val; omega
  rw [← he]
  exact View.canon_cons_emb _ _ _ _

end Cert.KernelIdeal.Cases

end
-- ==== Proof.KBlocks.lean ====
/-
  Where a grid point's blocks sit in their arrays.

  Point `t` of the 32 × 5 grid is tile `t % 5` of batch `t / 5`. The spatial and the output windows move with both: their
  block is channels × the 4864 cells from `(t % 5) · 4864` of batch `t / 5`. The embeddings, the mask column and the cell
  column move with the batch only; the weights and the bias do not move. So a block read at a coordinate is the array read
  at the batch, the same inner coordinates, and the tile's cell offset.
-/
import proofs.«407394_j85899345920647_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps and the tile coordinate, decided over the 160 points. -/
theorem idx_facts : ∀ t : Fin cfg0.N,
    win0_0.index t (0 : Fin 3) = t.val / 5 ∧ win0_0.index t (1 : Fin 3) = 0 ∧ win0_0.index t (2 : Fin 3) = t.val % 5
    ∧ win0_1.index t (0 : Fin 3) = t.val / 5 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 5 ∧ win0_4.index t (1 : Fin 3) = 0 ∧ win0_4.index t (2 : Fin 3) = 0
    ∧ win0_5.index t (0 : Fin 3) = t.val / 5 ∧ win0_5.index t (1 : Fin 3) = 0 ∧ win0_5.index t (2 : Fin 3) = 0
    ∧ win0_6.index t (0 : Fin 3) = t.val / 5 ∧ win0_6.index t (1 : Fin 3) = 0 ∧ win0_6.index t (2 : Fin 3) = t.val % 5
    ∧ (grid0.coords t (1 : Fin 2)).val = t.val % 5 :=
  (by decide +kernel : ∀ t : Fin grid0.N, _)

theorem N160 : cfg0.N = 160 := N_0

/-- The batch of a point. -/
def batch (t : Fin cfg0.N) : Fin 32 := ⟨t.val / 5, by have := t.isLt; have := N160; omega⟩

/-- The cell, in the flattened grid, of lane `l` of a point's tile. -/
def cellAt (t : Fin cfg0.N) (l : Fin 4864) : Fin 24320 := ⟨t.val % 5 * 4864 + l.val, by have := l.isLt; omega⟩

/-! The blocks and the arrays, named at their literal types. -/

abbrev spBlk (c : Dev nD) (t : Fin cfg0.N) : Vec F S1x48x4864 .f32 := iblk m c 0 t
abbrev embBlk (c : Dev nD) (t : Fin cfg0.N) : Vec F S1x512x256 .f32 := iblk m c 1 t
abbrev wBlk (c : Dev nD) (t : Fin cfg0.N) : Vec F S256x32 .f32 := iblk m c 2 t
abbrev bBlk (c : Dev nD) (t : Fin cfg0.N) : Vec F S32 .f32 := iblk m c 3 t
abbrev mskBlk (c : Dev nD) (t : Fin cfg0.N) : Vec F S1x512x1 .f32 := iblk m c 4 t
abbrev cellBlk (c : Dev nD) (t : Fin cfg0.N) : Vec F S1x512x1 .i32 := iblk m c 5 t

abbrev spArr (c : Dev nD) : Vec F S32x48x24320 .f32 := V m c main_v0
abbrev embArr (c : Dev nD) : Vec F S32x512x256 .f32 := V m c main_arg1
abbrev wArr (c : Dev nD) : Vec F S256x32 .f32 := V m c main_arg4
abbrev bArr (c : Dev nD) : Vec F S32 .f32 := V m c main_arg5
abbrev mskArr (c : Dev nD) : Vec F S32x512x1 .f32 := V m c main_v1
abbrev cellArr (c : Dev nD) : Vec F S32x512x1 .i32 := V m c main_v11

theorem spBlk_apply (c : Dev nD) (t : Fin cfg0.N) (ch : Fin 48) (l : Fin 4864) :
    spBlk m c t (ix3 (0 : Fin 1) ch l) = spArr m c (ix3 (batch t) ch (cellAt t l)) := by
  obtain ⟨e0, e1, e2, _⟩ := idx_facts t
  show V m c main_v0 (((cfg0.win 0).blk t).view.emb (ix3 (0 : Fin 1) ch l)) = V m c main_v0 _
  congr 1
  funext a; apply Fin.ext
  match a with
  | ⟨0, _⟩ => show win0_0.index t (0 : Fin 3) * 1 + 1 * 0 = t.val / 5; omega
  | ⟨1, _⟩ => show win0_0.index t (1 : Fin 3) * 48 + 1 * ch.val = ch.val; omega
  | ⟨2, _⟩ => show win0_0.index t (2 : Fin 3) * 4864 + 1 * l.val = t.val % 5 * 4864 + l.val; omega

theorem embBlk_apply (c : Dev nD) (t : Fin cfg0.N) (n : Fin 512) (d : Fin 256) :
    embBlk m c t (ix3 (0 : Fin 1) n d) = embArr m c (ix3 (batch t) n d) := by
  obtain ⟨_, _, _, f0, f1, f2, _⟩ := idx_facts t
  show V m c main_arg1 (((cfg0.win 1).blk t).view.emb (ix3 (0 : Fin 1) n d)) = V m c main_arg1 _
  congr 1
  funext a; apply Fin.ext
  match a with
  | ⟨0, _⟩ => show win0_1.index t (0 : Fin 3) * 1 + 1 * 0 = t.val / 5; omega
  | ⟨1, _⟩ => show win0_1.index t (1 : Fin 3) * 512 + 1 * n.val = n.val; omega
  | ⟨2, _⟩ => show win0_1.index t (2 : Fin 3) * 256 + 1 * d.val = d.val; omega

theorem wBlk_apply (c : Dev nD) (t : Fin cfg0.N) (d : Fin 256) (e : Fin 32) :
    wBlk m c t (ix2 d e) = wArr m c (ix2 d e) := by
  obtain ⟨_, _, _, _, _, _, g0, g1, _⟩ := idx_facts t
  show V m c main_arg4 (((cfg0.win 2).blk t).view.emb (ix2 d e)) = V m c main_arg4 _
  congr 1
  funext a; apply Fin.ext
  match a with
  | ⟨0, _⟩ => show win0_2.index t (0 : Fin 2) * 256 + 1 * d.val = d.val; omega
  | ⟨1, _⟩ => show win0_2.index t (1 : Fin 2) * 32 + 1 * e.val = e.val; omega

theorem bBlk_apply (c : Dev nD) (t : Fin cfg0.N) (e : Fin 32) :
    bBlk m c t (ix1 e) = bArr m c (ix1 e) := by
  obtain ⟨_, _, _, _, _, _, _, _, h0, _⟩ := idx_facts t
  show V m c main_arg5 (((cfg0.win 3).blk t).view.emb (ix1 e)) = V m c main_arg5 _
  congr 1
  funext a; apply Fin.ext
  match a with
  | ⟨0, _⟩ => show win0_3.index t (0 : Fin 1) * 32 + 1 * e.val = e.val; omega

theorem mskBlk_apply (c : Dev nD) (t : Fin cfg0.N) (n : Fin 512) :
    mskBlk m c t (ix3 (0 : Fin 1) n (0 : Fin 1)) = mskArr m c (ix3 (batch t) n (0 : Fin 1)) := by
  obtain ⟨_, _, _, _, _, _, _, _, _, k0, k1, k2, _⟩ := idx_facts t
  show V m c main_v1 (((cfg0.win 4).blk t).view.emb (ix3 (0 : Fin 1) n (0 : Fin 1))) = V m c main_v1 _
  congr 1
  funext a; apply Fin.ext
  match a with
  | ⟨0, _⟩ => show win0_4.index t (0 : Fin 3) * 1 + 1 * 0 = t.val / 5; omega
  | ⟨1, _⟩ => show win0_4.index t (1 : Fin 3) * 512 + 1 * n.val = n.val; omega
  | ⟨2, _⟩ => show win0_4.index t (2 : Fin 3) * 1 + 1 * 0 = 0; omega

theorem cellBlk_apply (c : Dev nD) (t : Fin cfg0.N) (n : Fin 512) :
    cellBlk m c t (ix3 (0 : Fin 1) n (0 : Fin 1)) = cellArr m c (ix3 (batch t) n (0 : Fin 1)) := by
  obtain ⟨_, _, _, _, _, _, _, _, _, _, _, _, p0, p1, p2, _⟩ := idx_facts t
  show V m c main_v11 (((cfg0.win 5).blk t).view.emb (ix3 (0 : Fin 1) n (0 : Fin 1))) = V m c main_v11 _
  congr 1
  funext a; apply Fin.ext
  match a with
  | ⟨0, _⟩ => show win0_5.index t (0 : Fin 3) * 1 + 1 * 0 = t.val / 5; omega
  | ⟨1, _⟩ => show win0_5.index t (1 : Fin 3) * 512 + 1 * n.val = n.val; omega
  | ⟨2, _⟩ => show win0_5.index t (2 : Fin 3) * 1 + 1 * 0 = 0; omega

end Cert.KernelIdeal.Blocks

end
-- ==== Proof.LibWordMax.lean ====
/-
  SIGNED MAXIMA OF WORDS, READ AS INTEGERS. The signed maximum of two words reads signed as the larger of their signed
  readings; hence a fold of the signed maximum over a finite family lies below an integer bound exactly when the start
  value and every member do. A host `stablehlo.scatter` whose body is the signed maximum is, position by position, such
  a fold over the updates that land there: it lies below a bound exactly when the operand's element and every update
  landing on the position do.
-/
import Idealize.ShloMosaic.PureOps.Reduce
import Idealize.ShloMosaic.PureOps.ShapeOps
import Idealize.ShloMosaic.Lib.WordArith

namespace Idealize.ShloMosaic.WordMax

open Idealize.ShloMosaic

/-- The signed maximum reads signed as the maximum of the signed readings. -/
theorem toInt_maxsi {w : Nat} (x y : BitVec w) : (IntOp.maxsi x y).toInt = max x.toInt y.toInt := by
  simp only [IntOp.maxsi, BitVec.slt, decide_eq_true_eq]
  split_ifs with h
  · exact (max_eq_left (le_of_lt h)).symm
  · exact (max_eq_right (not_lt.mp h)).symm

/-- The signed minimum reads signed as the minimum of the signed readings. -/
theorem toInt_minsi {w : Nat} (x y : BitVec w) : (IntOp.minsi x y).toInt = min x.toInt y.toInt := by
  simp only [IntOp.minsi, BitVec.slt, decide_eq_true_eq]
  split_ifs with h
  · exact (min_eq_left (le_of_lt h)).symm
  · exact (min_eq_right (not_lt.mp h)).symm

/-- A fold of the signed maximum over a finite family is below `z` exactly when its start and every member are. -/
theorem fold_maxsi_toInt_le {ι : Type} {w : Nat} (s : Finset ι) (init : BitVec w) (g : ι → BitVec w) (z : Int) :
    (s.fold IntOp.maxsi init g).toInt ≤ z ↔ init.toInt ≤ z ∧ ∀ i ∈ s, (g i).toInt ≤ z := by
  classical
  induction s using Finset.induction_on with
  | empty => simp
  | insert a s ha ih =>
    -- one more member `a`: the fold is the maximum of `g a` and the fold over the rest
    rw [Finset.fold_insert ha, toInt_maxsi, max_le_iff, ih]
    simp only [Finset.mem_insert, forall_eq_or_imp]
    tauto

/-- A property `P` of the accumulator that each step of a left fold keeps exactly when the step's element has `Q`
    holds of the fold's result exactly when it holds of the start and every element of the list has `Q`. -/
private theorem foldl_iff_of_step {α β : Type _} (step : β → α → β) (P : β → Prop) (Q : α → Prop)
    (hstep : ∀ r n, P (step r n) ↔ P r ∧ Q n) (l : List α) (r : β) :
    P (l.foldl step r) ↔ P r ∧ ∀ n ∈ l, Q n := by
  induction l generalizing r with
  | nil => simp
  | cons n l ih =>
    rw [List.foldl_cons, ih, hstep]
    simp only [List.mem_cons, forall_eq_or_imp, and_assoc]

/-- A scatter with the signed maximum as its body, read at operand position `p`, is below `z` exactly when the
    operand's element there is and every update whose result index is `p` is. -/
theorem scatter_maxsi_toInt_le {s si u : Shape} {w wi : Nat} (d : ScatterDims s si u) (x : s.Idx → BitVec w)
    (idx : IVec si wi) (upd : u.Idx → BitVec w) (p : s.Idx) (z : Int) :
    (Host.scatter d IntOp.maxsi x idx upd p).toInt ≤ z
      ↔ (x p).toInt ≤ z ∧ ∀ j : u.Idx, d.resultIdx? j idx = some p → (upd j).toInt ≤ z := by
  unfold Host.scatter
  -- the scatter is a left fold over the update positions in row-major order; being below `z` at `p` is kept by a
  -- step exactly when the step's update does not land on `p` or is itself below `z`
  refine (foldl_iff_of_step _ (fun r : s.Idx → BitVec w => (r p).toInt ≤ z)
    (fun n => d.resultIdx? (u.rowMajor.symm n) idx = some p → (upd (u.rowMajor.symm n)).toInt ≤ z) ?_ _ x).trans ?_
  · intro r n
    -- the step looks at where the update lands: nowhere, on `p`, or on another position
    cases hri : d.resultIdx? (u.rowMajor.symm n) idx with
    | none => simp
    | some i =>
      by_cases hp : p = i
      · subst hp
        simp [toInt_maxsi, max_le_iff]
      · have hne : ¬ i = p := fun e => hp e.symm
        simp [hp, hne]
  · -- every update position is the row-major image of its index
    refine and_congr_right fun _ => ⟨fun h j hj => ?_, fun h n _ => h _⟩
    have hn := h (u.rowMajor j) (List.mem_finRange _)
    rw [Equiv.symm_apply_apply] at hn
    exact hn hj

end Idealize.ShloMosaic.WordMax
-- ==== Proof.Grid.lean ====
/-
  THE SPECIFICATION, and the integer facts it rests on.

  Every entity `n` of batch `b` has a grid cell: its two location words, each clamped (read signed) into the grid,
  row · 160 + column, a number below 152 · 160 = 24320. Its projected embedding is
  `max (∑ d, emb[b,n,d] · W[d,e] + bias[e]) 0 · mask[b,n]`. The result has 80 channels over the 152 × 160 grid: the
  first 48 are the spatial input's, and channel `48 + e` at cell `l` is the sum of the projected embeddings (channel
  `e`) of the entities of that batch whose cell is `l`.

  Both programs compute with 32-bit words. This module shows that the words never wrap: the cell word reads as the cell
  number; a tile's position word `h · 4864 + l'` equals it exactly when the numbers agree; and the reference's row word
  `cell + b · 24320` is a non-negative number below 778240, so that its "negative index" correction never applies.
  Finally, the update rows `j = b' · 512 + n` of the reference's scatter that land on row `b · 24320 + l` are exactly
  the entities `n` of batch `b` in cell `l`.
-/
import Idealize.ShloMosaic.Lib.ValueIdx
import Idealize.ShloMosaic.PureOps.Ideal.Laws
import proofs.«407394_j85899345920647_2_alg».proof.Proof.LibWordMax

open scoped BigOperators

noncomputable section

namespace Cert.EntityGrid

open Idealize.ShloMosaic Idealize.ShloMosaic.ValueIdx

/-! ## Shapes -/

abbrev ShSp : Shape := ⟨4, ![32, 48, 152, 160]⟩
abbrev ShEmb : Shape := ⟨3, ![32, 512, 256]⟩
abbrev ShMsk : Shape := ⟨2, ![32, 512]⟩
abbrev ShLoc : Shape := ⟨3, ![32, 512, 2]⟩
abbrev ShW : Shape := ⟨2, ![256, 32]⟩
abbrev ShB : Shape := ⟨1, ![32]⟩
abbrev ShFlat : Shape := ⟨3, ![32, 80, 24320]⟩
abbrev ShOut : Shape := ⟨4, ![32, 80, 152, 160]⟩

/-! ## Words -/

/-- A word that reads signed as a number in `[0, K]` reads unsigned as the same number. -/
theorem toNat_of_toInt_bounds {a : BitVec 32} {K : Nat} (h0 : 0 ≤ a.toInt) (h1 : a.toInt ≤ (K : Int)) :
    a.toNat ≤ K := by
  have hlt := a.isLt
  rw [BitVec.toInt_eq_toNat_cond] at h0 h1
  split_ifs at h0 h1 <;> omega

/-- A coordinate word clamped, read signed, into `[0, hi]`: the larger of it and zero, then the smaller of that and `hi`. -/
def clampW (hi x : BitVec 32) : BitVec 32 := IntOp.minsi hi (IntOp.maxsi 0#32 x)

theorem clampW_toNat_le (hi x : BitVec 32) (K : Nat) (hK : hi.toInt = (K : Int)) : (clampW hi x).toNat ≤ K := by
  have e : (clampW hi x).toInt = min hi.toInt (max (0#32 : BitVec 32).toInt x.toInt) := by
    unfold clampW; rw [WordMax.toInt_minsi, WordMax.toInt_maxsi]
  have z : (0#32 : BitVec 32).toInt = 0 := by decide
  rw [z, hK] at e
  refine toNat_of_toInt_bounds ?_ ?_
  · rw [e]; exact le_min (Int.natCast_nonneg K) (le_max_left _ _)
  · rw [e]; exact min_le_left _ _

/-- The cell word of an entity: clamped row · 160 + clamped column. -/
def cellW (yw xw : BitVec 32) : BitVec 32 :=
  IntOp.addi (IntOp.muli (clampW 151#32 yw) 160#32) (clampW 159#32 xw)

/-- The cell word does not wrap: it is the cell number, below 24320. -/
theorem cellW_toNat (yw xw : BitVec 32) :
    (cellW yw xw).toNat = (clampW 151#32 yw).toNat * 160 + (clampW 159#32 xw).toNat := by
  have hy := clampW_toNat_le 151#32 yw 151 (by decide)
  have hx := clampW_toNat_le 159#32 xw 159 (by decide)
  unfold cellW IntOp.addi IntOp.muli
  rw [BitVec.toNat_add, BitVec.toNat_mul]
  show ((clampW 151#32 yw).toNat * 160 % 2 ^ 32 + (clampW 159#32 xw).toNat) % 2 ^ 32 = _
  omega

theorem cellW_lt (yw xw : BitVec 32) : (cellW yw xw).toNat < 24320 := by
  have hy := clampW_toNat_le 151#32 yw 151 (by decide)
  have hx := clampW_toNat_le 159#32 xw 159 (by decide)
  rw [cellW_toNat]; omega

/-- A tile's position word: tile `h` (of 5) starts at `h · 4864`, lane `l'` is the offset inside it. It equals a cell
    word exactly when the numbers agree. -/
theorem eq_posW_iff (a : BitVec 32) (ha : a.toNat < 24320) (h l' : Nat) (hh : h < 5) (hl : l' < 4864) :
    a = IntOp.addi (IntOp.muli (BitVec.ofNat 32 h) 4864#32) (BitVec.ofNat 32 l') ↔ a.toNat = h * 4864 + l' := by
  rw [← BitVec.toNat_inj]
  unfold IntOp.addi IntOp.muli
  rw [BitVec.toNat_add, BitVec.toNat_mul, BitVec.toNat_ofNat, BitVec.toNat_ofNat]
  show a.toNat = (h % 2 ^ 32 * 4864 % 2 ^ 32 + l' % 2 ^ 32) % 2 ^ 32 ↔ _
  omega

/-- The 0/1 word of a comparison for equality, widened to 32 bits and read signed: one when the words are equal. -/
theorem toInt_eq_word (a b : BitVec 32) :
    ((IntOp.cmpi .eq a b).setWidth 32).toInt = if a = b then 1 else 0 := by
  unfold IntOp.cmpi
  by_cases h : a = b
  · subst h; simp
  · have : (a == b) = false := by simpa using h
    simp [this, h]

/-- The reference's row word: the cell word plus `b · 24320`. It does not wrap, is not negative, and so the correction
    "add the table's height to a negative index" leaves it as it is; read signed it is `cell + b · 24320`. -/
theorem rowW_toInt (a : BitVec 32) (ha : a.toNat < 24320) (b : Nat) (hb : b < 32) :
    (Scalar.select (IntOp.cmpi .slt (IntOp.addi a (IntOp.muli (BitVec.ofNat 32 b) 24320#32)) 0#32)
        (IntOp.addi (IntOp.addi a (IntOp.muli (BitVec.ofNat 32 b) 24320#32)) 778240#32)
        (IntOp.addi a (IntOp.muli (BitVec.ofNat 32 b) 24320#32))).toInt = ((a.toNat + b * 24320 : Nat) : Int) := by
  have hr : (IntOp.addi a (IntOp.muli (BitVec.ofNat 32 b) 24320#32)).toNat = a.toNat + b * 24320 := by
    unfold IntOp.addi IntOp.muli
    rw [BitVec.toNat_add, BitVec.toNat_mul, BitVec.toNat_ofNat]
    show (a.toNat + b % 2 ^ 32 * 24320 % 2 ^ 32) % 2 ^ 32 = _
    omega
  have hi : (IntOp.addi a (IntOp.muli (BitVec.ofNat 32 b) 24320#32)).toInt = ((a.toNat + b * 24320 : Nat) : Int) := by
    rw [BitVec.toInt_eq_toNat_cond, hr, if_pos (by omega)]
  have hlt : ¬ (IntOp.addi a (IntOp.muli (BitVec.ofNat 32 b) 24320#32)).toInt < (0#32 : BitVec 32).toInt := by
    rw [hi, show (0#32 : BitVec 32).toInt = 0 from by decide]; omega
  have hs : (IntOp.addi a (IntOp.muli (BitVec.ofNat 32 b) 24320#32)).slt 0#32 = false := by
    unfold BitVec.slt; exact decide_eq_false hlt
  have hn : ¬ (IntOp.cmpi .slt (IntOp.addi a (IntOp.muli (BitVec.ofNat 32 b) 24320#32)) 0#32 = 1) := by
    have e : IntOp.cmpi .slt (IntOp.addi a (IntOp.muli (BitVec.ofNat 32 b) 24320#32)) 0#32
        = BitVec.ofBool ((IntOp.addi a (IntOp.muli (BitVec.ofNat 32 b) 24320#32)).slt 0#32) := rfl
    rw [e, hs]
    decide
  unfold Scalar.select
  rw [if_neg hn, hi]

/-! ## The update rows that land on a row -/

/-- Update row `j = b' · 512 + n` of the 32 · 512 rows carries entity `n` of batch `b'` and is sent to row
    `cell b' n + b' · 24320`. Since every cell is below 24320, the rows sent to `b · 24320 + l` (with `l < 24320`) are
    the entities of batch `b` whose cell is `l`. -/
theorem sum_landing_rows {M : Type} [AddCommMonoid M] (cell : Fin 32 → Fin 512 → Nat)
    (hcell : ∀ b n, cell b n < 24320) (g : Fin 32 → Fin 512 → M) (b : Fin 32) (l : Nat) (hl : l < 24320) :
    ∑ j ∈ Finset.univ.filter (fun j : Fin 16384 =>
        cell ⟨j.val / 512, by omega⟩ ⟨j.val % 512, by omega⟩ + j.val / 512 * 24320 = b.val * 24320 + l),
      g ⟨j.val / 512, by omega⟩ ⟨j.val % 512, by omega⟩
    = ∑ n ∈ Finset.univ.filter (fun n : Fin 512 => cell b n = l), g b n := by
  have key : ∀ j : Fin 16384,
      cell ⟨j.val / 512, by omega⟩ ⟨j.val % 512, by omega⟩ + j.val / 512 * 24320 = b.val * 24320 + l →
      (⟨j.val / 512, by omega⟩ : Fin 32) = b := fun j hj => by
    have := hcell ⟨j.val / 512, by omega⟩ ⟨j.val % 512, by omega⟩
    apply Fin.ext
    show j.val / 512 = b.val
    omega
  refine Finset.sum_bij' (fun j _ => (⟨j.val % 512, by omega⟩ : Fin 512))
    (fun n _ => (⟨b.val * 512 + n.val, by have := b.isLt; have := n.isLt; omega⟩ : Fin 16384)) ?_ ?_ ?_ ?_ ?_
  · intro j hj
    have hj' := (Finset.mem_filter.1 hj).2
    have hb := key j hj'
    refine Finset.mem_filter.2 ⟨Finset.mem_univ _, ?_⟩
    rw [hb] at hj'
    have : j.val / 512 = b.val := congrArg Fin.val hb
    omega
  · intro n hn
    have hn' := (Finset.mem_filter.1 hn).2
    refine Finset.mem_filter.2 ⟨Finset.mem_univ _, ?_⟩
    have hq : (b.val * 512 + n.val) / 512 = b.val := by have := n.isLt; omega
    have hr : (b.val * 512 + n.val) % 512 = n.val := by have := n.isLt; omega
    have e1 : (⟨(b.val * 512 + n.val) / 512, by have := b.isLt; have := n.isLt; omega⟩ : Fin 32) = b := Fin.ext hq
    have e2 : (⟨(b.val * 512 + n.val) % 512, by omega⟩ : Fin 512) = n := Fin.ext hr
    show cell ⟨(b.val * 512 + n.val) / 512, _⟩ ⟨(b.val * 512 + n.val) % 512, _⟩ + (b.val * 512 + n.val) / 512 * 24320 = _
    rw [e1, e2, hn', hq]
    omega
  · intro j hj
    have hb := key j (Finset.mem_filter.1 hj).2
    have : j.val / 512 = b.val := congrArg Fin.val hb
    apply Fin.ext
    show b.val * 512 + j.val % 512 = j.val
    omega
  · intro n _
    apply Fin.ext
    show (b.val * 512 + n.val) % 512 = n.val
    have := n.isLt; omega
  · intro j hj
    have hb := key j (Finset.mem_filter.1 hj).2
    rw [hb]

/-! ## The specification -/

/-- The projected embedding of entity `n` of batch `b`, channel `e`. -/
def proj (emb : ShEmb.Idx → EReal) (W : ShW.Idx → EReal) (bias : ShB.Idx → EReal) (msk : ShMsk.Idx → EReal)
    (b : Fin 32) (n : Fin 512) (e : Fin 32) : EReal :=
  max ((∑ d : Fin 256, emb (ix3 b n d) * W (ix2 d e)) + bias (ix1 e)) 0 * msk (ix2 b n)

/-- The cell word of entity `n` of batch `b`. -/
def cellOf (loc : ShLoc.Idx → BitVec 32) (b : Fin 32) (n : Fin 512) : BitVec 32 :=
  cellW (loc (ix3 b n (0 : Fin 2))) (loc (ix3 b n (1 : Fin 2)))

/-- Channel `48 + e` at cell `l` of batch `b`: the projected embeddings of the entities in that cell, summed. -/
def scat (emb : ShEmb.Idx → EReal) (W : ShW.Idx → EReal) (bias : ShB.Idx → EReal) (msk : ShMsk.Idx → EReal)
    (loc : ShLoc.Idx → BitVec 32) (b : Fin 32) (e : Fin 32) (l : Nat) : EReal :=
  ∑ n ∈ Finset.univ.filter (fun n : Fin 512 => (cellOf loc b n).toNat = l), proj emb W bias msk b n e

/-- The result over the flattened grid `[32, 80, 24320]`. -/
def Gflat (sp : ShSp.Idx → EReal) (emb : ShEmb.Idx → EReal) (msk : ShMsk.Idx → EReal) (loc : ShLoc.Idx → BitVec 32)
    (W : ShW.Idx → EReal) (bias : ShB.Idx → EReal) (b : Fin 32) (ch : Fin 80) (l : Fin 24320) : EReal :=
  if h : ch.val < 48 then
    sp (ix4 b ⟨ch.val, h⟩ ⟨l.val / 160, by have := l.isLt; omega⟩ ⟨l.val % 160, by omega⟩)
  else scat emb W bias msk loc b ⟨ch.val - 48, by have := ch.isLt; omega⟩ l.val

/-- The result `[32, 80, 152, 160]`: the flattened one at cell `y · 160 + x`. -/
def G (sp : ShSp.Idx → EReal) (emb : ShEmb.Idx → EReal) (msk : ShMsk.Idx → EReal) (loc : ShLoc.Idx → BitVec 32)
    (W : ShW.Idx → EReal) (bias : ShB.Idx → EReal) : ShOut.Idx → EReal := fun i =>
  Gflat sp emb msk loc W bias (i 0) (i 1)
    ⟨(i 2).val * 160 + (i 3).val, by have h2 : (i 2).val < 152 := (i 2).isLt; have h3 : (i 3).val < 160 := (i 3).isLt; omega⟩

end Cert.EntityGrid

end
-- ==== Proof.KHost.lean ====
/-
  What the region finds in the arrays that @main computes for it.

  Before the region @main flattens the spatial input's grid (152 × 160 cells to 24320), gives the mask a trailing unit axis,
  and computes every entity's cell word — each location coordinate clamped into the grid, row · 160 + column — as a column
  `[32, 512, 1]`. Read at an index: the flattened spatial array at cell `l` is the input at `(l / 160, l % 160)`; the mask
  column is the mask; the cell column is the cell word of the specification.
-/
import proofs.«407394_j85899345920647_2_alg».proof.Proof.KBlocks
import proofs.«407394_j85899345920647_2_alg».proof.Proof.Grid
import Idealize.ShloMosaic.Lib.StableHlo.Run
import Idealize.ShloMosaic.Lib.StableHlo.Predicate

set_option maxRecDepth 16384

noncomputable section

open Idealize.ShloMosaic Idealize.ShloMosaic.TcCoe Idealize.SL.Sem Idealize.ShloMosaic.ValueIdx Idealize.ShloMosaic.StableHlo

namespace Cert.KernelIdeal.Host

open Cert.KernelIdeal Cert.KernelIdeal.Gen Cert.KernelIdeal.Blocks Cert.EntityGrid

variable {F : FTy → Type} [FloatOps F]
variable (m : (ℓ : Loc nD τ sig) → Buf (Elt F) ℓ)

/-- One location coordinate of every entity, clamped into `[0, hi]`: the slice, the reshape, and the two bounds. -/
def clampCol (hi : BitVec 32) (off : Fin 3 → Nat) (h : S32x512x2.Slices off S32x512x1) (loc : Vec F S32x512x2 .i32) :
    IVec S32x512 32 :=
  minsi (broadcastInDim S32x512 ![] Facts₀.bcast_S_S32x512 (id (constantI S_ 32 hi)))
    (maxsi (broadcastInDim S32x512 ![] Facts₀.bcast_S_S32x512 (id (constantI S_ 32 0#32)))
      (shapeCast S32x512 (extractStridedSlice S32x512x1 off loc h) Facts₀.shapeCasts_S32x512x1_S32x512))

/-- The cell column, as @main computes it from the locations. -/
def cellTerm (loc : Vec F S32x512x2 .i32) : Vec F S32x512x1 .i32 :=
  shapeCast S32x512x1
    (addi (muli (clampCol (F := F) 151#32 ![0, 0, 0] Facts₀.slices_S32x512x2_S32x512x1_0_0_0 loc)
        (broadcastInDim S32x512 ![] Facts₀.bcast_S_S32x512 (constantI S_ 32 160#32)))
      (clampCol (F := F) 159#32 ![0, 0, 1] Facts₀.slices_S32x512x2_S32x512x1_0_0_1 loc))
    Facts₀.shapeCasts_S32x512_S32x512x1

theorem spArr_eq (c : Dev nD) :
    spArr m c = shapeCast S32x48x24320 (m ((c : Thread nD τ).loc main_arg0)) Facts₀.shapeCasts_S32x48x152x160_S32x48x24320 := by
  show (V m c main_v0 : S32x48x24320.Idx → Elt F .f32) = _
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem mskArr_eq (c : Dev nD) :
    mskArr m c = shapeCast S32x512x1 (m ((c : Thread nD τ).loc main_arg2)) Facts₀.shapeCasts_S32x512_S32x512x1 := by
  show (V m c main_v1 : S32x512x1.Idx → Elt F .f32) = _
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 1600000 in
theorem cellArr_eq (c : Dev nD) : cellArr m c = cellTerm (F := F) (m ((c : Thread nD τ).loc main_arg3)) := by
  show (V m c main_v11 : S32x512x1.Idx → Elt F .i32) = _
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

/-! ## Read at an index -/

theorem spArr_apply (c : Dev nD) (b : Fin 32) (ch : Fin 48) (l : Fin 24320) :
    spArr m c (ix3 b ch l) = m ((c : Thread nD τ).loc main_arg0)
      (ix4 b ch (⟨l.val / 160, by have := l.isLt; omega⟩ : Fin 152) (⟨l.val % 160, by omega⟩ : Fin 160)) := by
  rw [spArr_eq]
  refine shapeCast_apply _ _ _ _ ?_
  show (S32x48x152x160.rowMajor (ix4 b ch (⟨l.val / 160, by have := l.isLt; omega⟩ : Fin 152) (⟨l.val % 160, by omega⟩ : Fin 160))).val
    = (S32x48x24320.rowMajor (ix3 b ch l)).val
  rw [Shape.rowMajor_val_four, Shape.rowMajor_val_three]
  show ((b.val * 48 + ch.val) * 152 + l.val / 160) * 160 + l.val % 160 = (b.val * 48 + ch.val) * 24320 + l.val
  omega

theorem mskArr_apply (c : Dev nD) (b : Fin 32) (n : Fin 512) :
    mskArr m c (ix3 b n (0 : Fin 1)) = m ((c : Thread nD τ).loc main_arg2) (ix2 b n) := by
  rw [mskArr_eq]
  refine shapeCast_apply _ _ _ _ ?_
  show (S32x512.rowMajor (ix2 b n)).val = (S32x512x1.rowMajor (ix3 b n (0 : Fin 1))).val
  rw [Shape.rowMajor_val_two, Shape.rowMajor_val_three]
  show b.val * 512 + n.val = (b.val * 512 + n.val) * 1 + 0
  omega

/-- A clamped coordinate column at `(b, n)` is the clamp of that entity's location word. -/
theorem clampCol_apply (hi : BitVec 32) (off : Fin 3 → Nat) (k : Fin 2) (hoff : off = ![0, 0, k.val])
    (h : S32x512x2.Slices off S32x512x1) (loc : Vec F S32x512x2 .i32) (b : Fin 32) (n : Fin 512) :
    clampCol (F := F) hi off h loc (ix2 b n) = clampW hi (loc (ix3 b n k)) := by
  subst hoff
  unfold clampCol clampW
  show IntOp.minsi (broadcastInDim S32x512 ![] _ (id (constantI S_ 32 hi)) (ix2 b n))
      (IntOp.maxsi (broadcastInDim S32x512 ![] _ (id (constantI S_ 32 0#32)) (ix2 b n))
        (shapeCast S32x512 (extractStridedSlice S32x512x1 ![0, 0, k.val] loc h) _ (ix2 b n))) = _
  rw [StableHlo.Predicate.bcast_scalar _ (by decide), StableHlo.Predicate.bcast_scalar _ (by decide)]
  have e1 : shapeCast S32x512 (extractStridedSlice S32x512x1 ![0, 0, k.val] loc h) Facts₀.shapeCasts_S32x512x1_S32x512 (ix2 b n)
      = extractStridedSlice S32x512x1 ![0, 0, k.val] loc h (ix3 b n (0 : Fin 1)) := by
    refine shapeCast_apply _ _ _ _ ?_
    rw [Shape.rowMajor_val_three, Shape.rowMajor_val_two]
    show (b.val * 512 + n.val) * 1 + 0 = b.val * 512 + n.val
    omega
  have e2 : extractStridedSlice S32x512x1 ![0, 0, k.val] loc h (ix3 b n (0 : Fin 1)) = loc (ix3 b n k) := by
    refine extractStridedSlice_apply _ _ _ _ _ (fun a => ?_)
    match a with
    | ⟨0, _⟩ => show b.val = 0 + b.val; omega
    | ⟨1, _⟩ => show n.val = 0 + n.val; omega
    | ⟨2, _⟩ => show k.val = k.val + 0; omega
  rw [e1, e2]
  rfl

theorem cellArr_apply (c : Dev nD) (b : Fin 32) (n : Fin 512) :
    cellArr m c (ix3 b n (0 : Fin 1)) = cellOf (m ((c : Thread nD τ).loc main_arg3)) b n := by
  rw [cellArr_eq]
  unfold cellTerm cellOf cellW
  have e0 : ∀ (v : IVec S32x512 32), shapeCast S32x512x1 v Facts₀.shapeCasts_S32x512_S32x512x1 (ix3 b n (0 : Fin 1)) = v (ix2 b n) := fun v => by
    refine shapeCast_apply _ _ _ _ ?_
    rw [Shape.rowMajor_val_two, Shape.rowMajor_val_three]
    show b.val * 512 + n.val = (b.val * 512 + n.val) * 1 + 0
    omega
  rw [e0]
  show IntOp.addi (IntOp.muli (clampCol (F := F) 151#32 ![0, 0, 0] _ _ (ix2 b n))
      (broadcastInDim S32x512 ![] _ (constantI S_ 32 160#32) (ix2 b n))) (clampCol (F := F) 159#32 ![0, 0, 1] _ _ (ix2 b n)) = _
  rw [StableHlo.Predicate.bcast_scalar _ (by decide), clampCol_apply (F := F) 151#32 ![0, 0, 0] (0 : Fin 2) rfl, clampCol_apply (F := F) 159#32 ![0, 0, 1] (1 : Fin 2) rfl]
  rfl

end Cert.KernelIdeal.Host

end
-- ==== Proof.KPay.lean ====
/-
  The kernel body's three stored values, read at an index, at the ideal instance.

  The body's first store (at the first tile of a batch) writes the projected embeddings `[512, 32]`; its second copies
  the spatial block; its third writes, for the tile's 4864 cells, the product of the projected embeddings (transposed)
  with the 0/1 matrix "entity `n` is in cell `l`". A product with a 0/1 matrix is a sum over the rows where it is one.
-/
import proofs.«407394_j85899345920647_2_alg».proof.Proof.Gen.KernelIdeal.Skeleton
import proofs.«407394_j85899345920647_2_alg».proof.Proof.Grid
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.Pay

open Cert.KernelIdeal Cert.KernelIdeal.Gen Idealize.ShloMosaic Idealize.ShloMosaic.ValueIdx

/-! ## The first product: `[512, 256] × [256, 32]`, contracting the left operand's axis 1 with the right operand's axis 0 -/

/-- The left operand's row coordinate is the output's row coordinate. -/
private theorem lhs_mm1_0 (i : S512x32.Idx) (q : dot_S512x256_S256x32_S512x32_1_0_0_1_n_n.contr.Idx) :
    (dot_S512x256_S256x32_S512x32_1_0_0_1_n_n.lhsIdx i q 0).val = (i 0).val := by
  unfold DotDims.lhsIdx
  rw [dif_neg (show ¬(0 : Fin S512x256.rank) ∈ dot_S512x256_S256x32_S512x32_1_0_0_1_n_n.lhsBatch by decide), dif_pos (show (0 : Fin S512x256.rank) ∈ dot_S512x256_S256x32_S512x32_1_0_0_1_n_n.lhsNonContracting by decide)]
  rfl
/-- The left operand's column coordinate is the contracted one. -/
private theorem lhs_mm1_1 (i : S512x32.Idx) (q : dot_S512x256_S256x32_S512x32_1_0_0_1_n_n.contr.Idx) :
    (dot_S512x256_S256x32_S512x32_1_0_0_1_n_n.lhsIdx i q 1).val = (q ⟨0, by decide⟩).val :=
  dot_S512x256_S256x32_S512x32_1_0_0_1_n_n.lhsIdx_val_of_single rfl i q
/-- The right operand's row coordinate is the contracted one. -/
private theorem rhs_mm1_0 (i : S512x32.Idx) (q : dot_S512x256_S256x32_S512x32_1_0_0_1_n_n.contr.Idx) :
    (dot_S512x256_S256x32_S512x32_1_0_0_1_n_n.rhsIdx i q 0).val = (q ⟨0, by decide⟩).val :=
  dot_S512x256_S256x32_S512x32_1_0_0_1_n_n.rhsIdx_val_of_single rfl i q
/-- The right operand's column coordinate is the output's column coordinate. -/
private theorem rhs_mm1_1 (i : S512x32.Idx) (q : dot_S512x256_S256x32_S512x32_1_0_0_1_n_n.contr.Idx) :
    (dot_S512x256_S256x32_S512x32_1_0_0_1_n_n.rhsIdx i q 1).val = (i 1).val := by
  unfold DotDims.rhsIdx
  rw [dif_neg (show ¬(1 : Fin S256x32.rank) ∈ dot_S512x256_S256x32_S512x32_1_0_0_1_n_n.rhsBatch by decide), dif_pos (show (1 : Fin S256x32.rank) ∈ dot_S512x256_S256x32_S512x32_1_0_0_1_n_n.rhsNonContracting by decide)]
  rfl

/-- The product into the zero block at `(n, e)`: the sum over the 256 contracted coordinates. -/
private theorem mm1_apply (A : FVec Ideal S512x256 .bf16) (B : FVec Ideal S256x32 .bf16) (n : Fin 512) (e : Fin 32) :
    matmul (F := Ideal) dot_S512x256_S256x32_S512x32_1_0_0_1_n_n none A B (constant S512x32 .f32 0x00000000#32) (ix2 n e)
      = ∑ d : Fin 256, A (ix2 n d) * B (ix2 d e) := by
  simp only [matmul]
  rw [Ideal.matmul_constant_zero_apply, ← Equiv.sum_comp (ValueIdx.contrEquiv1 dot_S512x256_S256x32_S512x32_1_0_0_1_n_n 256 rfl rfl).symm]
  refine Finset.sum_congr rfl fun k _ => ?_
  have hk := ValueIdx.contrEquiv1_symm_val dot_S512x256_S256x32_S512x32_1_0_0_1_n_n 256 rfl rfl k
  have el : dot_S512x256_S256x32_S512x32_1_0_0_1_n_n.lhsIdx (ix2 n e) ((ValueIdx.contrEquiv1 dot_S512x256_S256x32_S512x32_1_0_0_1_n_n 256 rfl rfl).symm k) = ix2 n k := funext fun a => Fin.ext (by
    match a with
    | ⟨0, _⟩ => exact lhs_mm1_0 _ _
    | ⟨1, _⟩ => exact (lhs_mm1_1 _ _).trans hk)
  have er : dot_S512x256_S256x32_S512x32_1_0_0_1_n_n.rhsIdx (ix2 n e) ((ValueIdx.contrEquiv1 dot_S512x256_S256x32_S512x32_1_0_0_1_n_n 256 rfl rfl).symm k) = ix2 k e := funext fun a => Fin.ext (by
    match a with
    | ⟨0, _⟩ => exact (rhs_mm1_0 _ _).trans hk
    | ⟨1, _⟩ => exact rhs_mm1_1 _ _)
  rw [el, er]

/-! ## The layout operations of the first block, each read at an index -/

/-- `[1, 512, 256]` viewed `[512, 256]` reads `(0, n, d)` at `(n, d)`. -/
private theorem cast_emb_apply {α : Type} (x : S1x512x256.Idx → α) (h : S1x512x256.ShapeCasts S512x256) (n : Fin 512) (d : Fin 256) :
    shapeCast S512x256 x h (ix2 n d) = x (ix3 (0 : Fin 1) n d) :=
  shapeCast_apply x h (ix2 n d) (ix3 (0 : Fin 1) n d) (by
    rw [Shape.rowMajor_val_three, Shape.rowMajor_val_two]
    show (0 * 512 + n.val) * 256 + d.val = n.val * 256 + d.val
    omega)

/-- The bias `[32]` viewed `[1, 32]` and repeated down the 512 rows reads `e` at `(n, e)`. -/
private theorem bias_apply {α : Type} (x : S32.Idx → α) (h : S32.ShapeCasts S1x32) (hb : S1x32.Broadcasts S512x32) (n : Fin 512) (e : Fin 32) :
    broadcastTo S512x32 (shapeCast S1x32 x h) hb (ix2 n e) = x (ix1 e) := by
  refine (broadcastTo_apply _ hb (ix2 n e) (ix2 (0 : Fin 1) e) (fun a => ?_)).trans ?_
  · match a with
    | ⟨0, _⟩ => show 0 = if (1 : Nat) = 1 then 0 else n.val; rw [if_pos rfl]
    | ⟨1, _⟩ => show e.val = if (32 : Nat) = 1 then 0 else e.val; rw [if_neg (by decide)]
  · exact shapeCast_apply x h (ix2 (0 : Fin 1) e) (ix1 e) (by
      rw [Shape.rowMajor_val_one, Shape.rowMajor_val_two]
      show e.val = 0 * 32 + e.val
      omega)

/-- The mask `[1, 512, 1]` viewed `[512, 1]` and repeated along the 32 columns reads `(0, n, 0)` at `(n, e)`. -/
private theorem mask_apply {α : Type} (x : S1x512x1.Idx → α) (h : S1x512x1.ShapeCasts S512x1) (hb : S512x1.Broadcasts S512x32) (n : Fin 512) (e : Fin 32) :
    broadcastTo S512x32 (shapeCast S512x1 x h) hb (ix2 n e) = x (ix3 (0 : Fin 1) n (0 : Fin 1)) := by
  refine (broadcastTo_apply _ hb (ix2 n e) (ix2 n (0 : Fin 1)) (fun a => ?_)).trans ?_
  · match a with
    | ⟨0, _⟩ => show n.val = if (512 : Nat) = 1 then 0 else n.val; rw [if_neg (by decide)]
    | ⟨1, _⟩ => show 0 = if (1 : Nat) = 1 then 0 else e.val; rw [if_pos rfl]
  · exact shapeCast_apply x h (ix2 n (0 : Fin 1)) (ix3 (0 : Fin 1) n (0 : Fin 1)) (by
      rw [Shape.rowMajor_val_three, Shape.rowMajor_val_two]
      show (0 * 512 + n.val) * 1 + 0 = n.val * 1 + 0
      omega)

/-- The projection block at `(n, e)`: `max (∑ d, emb[0,n,d] · W[d,e] + bias[e]) 0 · mask[0,n,0]`. -/
theorem pay1_apply (v26 : Vec Ideal S1x512x256 .f32) (v29 : Vec Ideal S256x32 .f32) (v32 : Vec Ideal S32 .f32)
    (v38 : Vec Ideal S1x512x1 .f32) (n : Fin 512) (e : Fin 32) :
    k0_pay1 (F := Ideal) v26 v29 v32 v38 (ix2 n e)
      = max ((∑ d : Fin 256, v26 (ix3 (0 : Fin 1) n d) * v29 (ix2 d e)) + v32 (ix1 e)) 0 * v38 (ix3 (0 : Fin 1) n (0 : Fin 1)) := by
  unfold k0_pay1
  rw [shapeCast_self, mulf_apply, maximumf_apply, addf_apply, broadcast_apply, mm1_apply, bias_apply, mask_apply,
    Ideal.ofBits_def, Ideal.ofBits_zero_f32]
  simp only [truncf_apply, cast_emb_apply]

/-- The spatial block is copied unchanged. -/
theorem pay2_eq (v18 : Vec Ideal S1x48x4864 .f32) : k0_pay2 (F := Ideal) v18 = v18 := by
  unfold k0_pay2
  exact shapeCast_shapeCast v18 _ _

/-! ## The second product: `[512, 32]ᵀ × [512, 4864]`, contracting axis 0 of both operands -/

/-- The left operand's row coordinate is the contracted one. -/
private theorem lhs_mm2_0 (i : S32x4864.Idx) (q : dot_S512x32_S512x4864_S32x4864_0_0_1_1_n_n.contr.Idx) :
    (dot_S512x32_S512x4864_S32x4864_0_0_1_1_n_n.lhsIdx i q 0).val = (q ⟨0, by decide⟩).val :=
  dot_S512x32_S512x4864_S32x4864_0_0_1_1_n_n.lhsIdx_val_of_single rfl i q
/-- The left operand's column coordinate is the output's row coordinate. -/
private theorem lhs_mm2_1 (i : S32x4864.Idx) (q : dot_S512x32_S512x4864_S32x4864_0_0_1_1_n_n.contr.Idx) :
    (dot_S512x32_S512x4864_S32x4864_0_0_1_1_n_n.lhsIdx i q 1).val = (i 0).val := by
  unfold DotDims.lhsIdx
  rw [dif_neg (show ¬(1 : Fin S512x32.rank) ∈ dot_S512x32_S512x4864_S32x4864_0_0_1_1_n_n.lhsBatch by decide), dif_pos (show (1 : Fin S512x32.rank) ∈ dot_S512x32_S512x4864_S32x4864_0_0_1_1_n_n.lhsNonContracting by decide)]
  rfl
/-- The right operand's row coordinate is the contracted one. -/
private theorem rhs_mm2_0 (i : S32x4864.Idx) (q : dot_S512x32_S512x4864_S32x4864_0_0_1_1_n_n.contr.Idx) :
    (dot_S512x32_S512x4864_S32x4864_0_0_1_1_n_n.rhsIdx i q 0).val = (q ⟨0, by decide⟩).val :=
  dot_S512x32_S512x4864_S32x4864_0_0_1_1_n_n.rhsIdx_val_of_single rfl i q
/-- The right operand's column coordinate is the output's column coordinate. -/
private theorem rhs_mm2_1 (i : S32x4864.Idx) (q : dot_S512x32_S512x4864_S32x4864_0_0_1_1_n_n.contr.Idx) :
    (dot_S512x32_S512x4864_S32x4864_0_0_1_1_n_n.rhsIdx i q 1).val = (i 1).val := by
  unfold DotDims.rhsIdx
  rw [dif_neg (show ¬(1 : Fin S512x4864.rank) ∈ dot_S512x32_S512x4864_S32x4864_0_0_1_1_n_n.rhsBatch by decide), dif_pos (show (1 : Fin S512x4864.rank) ∈ dot_S512x32_S512x4864_S32x4864_0_0_1_1_n_n.rhsNonContracting by decide)]
  rfl

/-- The product into the zero block at `(e, l)`: the sum over the 512 contracted rows. -/
private theorem mm2_apply (A : FVec Ideal S512x32 .bf16) (B : FVec Ideal S512x4864 .bf16) (e : Fin 32) (l : Fin 4864) :
    matmul (F := Ideal) dot_S512x32_S512x4864_S32x4864_0_0_1_1_n_n none A B (constant S32x4864 .f32 0x00000000#32) (ix2 e l)
      = ∑ n : Fin 512, A (ix2 n e) * B (ix2 n l) := by
  simp only [matmul]
  rw [Ideal.matmul_constant_zero_apply, ← Equiv.sum_comp (ValueIdx.contrEquiv1 dot_S512x32_S512x4864_S32x4864_0_0_1_1_n_n 512 rfl rfl).symm]
  refine Finset.sum_congr rfl fun k _ => ?_
  have hk := ValueIdx.contrEquiv1_symm_val dot_S512x32_S512x4864_S32x4864_0_0_1_1_n_n 512 rfl rfl k
  have el : dot_S512x32_S512x4864_S32x4864_0_0_1_1_n_n.lhsIdx (ix2 e l) ((ValueIdx.contrEquiv1 dot_S512x32_S512x4864_S32x4864_0_0_1_1_n_n 512 rfl rfl).symm k) = ix2 k e := funext fun a => Fin.ext (by
    match a with
    | ⟨0, _⟩ => exact (lhs_mm2_0 _ _).trans hk
    | ⟨1, _⟩ => exact lhs_mm2_1 _ _)
  have er : dot_S512x32_S512x4864_S32x4864_0_0_1_1_n_n.rhsIdx (ix2 e l) ((ValueIdx.contrEquiv1 dot_S512x32_S512x4864_S32x4864_0_0_1_1_n_n 512 rfl rfl).symm k) = ix2 k l := funext fun a => Fin.ext (by
    match a with
    | ⟨0, _⟩ => exact (rhs_mm2_0 _ _).trans hk
    | ⟨1, _⟩ => exact rhs_mm2_1 _ _)
  rw [el, er]

/-! ## The layout operations of the third block, each read at an index -/

/-- `[32, 4864]` viewed `[1, 32, 4864]` reads `(e, l)` at `(0, e, l)`. -/
private theorem cast_out_apply {α : Type} (x : S32x4864.Idx → α) (h : S32x4864.ShapeCasts S1x32x4864) (e : Fin 32) (l : Fin 4864) :
    shapeCast S1x32x4864 x h (ix3 (0 : Fin 1) e l) = x (ix2 e l) :=
  shapeCast_apply x h (ix3 (0 : Fin 1) e l) (ix2 e l) (by
    rw [Shape.rowMajor_val_three, Shape.rowMajor_val_two]
    show e.val * 4864 + l.val = (0 * 32 + e.val) * 4864 + l.val
    omega)

/-- The cell words `[1, 512, 1]` viewed `[512, 1]` and repeated along the 4864 lanes read `(0, n, 0)` at `(n, l)`. -/
private theorem cell_apply {α : Type} (x : S1x512x1.Idx → α) (h : S1x512x1.ShapeCasts S512x1) (hb : S512x1.Broadcasts S512x4864) (n : Fin 512) (l : Fin 4864) :
    broadcastTo S512x4864 (shapeCast S512x1 x h) hb (ix2 n l) = x (ix3 (0 : Fin 1) n (0 : Fin 1)) := by
  refine (broadcastTo_apply _ hb (ix2 n l) (ix2 n (0 : Fin 1)) (fun a => ?_)).trans ?_
  · match a with
    | ⟨0, _⟩ => show n.val = if (512 : Nat) = 1 then 0 else n.val; rw [if_neg (by decide)]
    | ⟨1, _⟩ => show 0 = if (1 : Nat) = 1 then 0 else l.val; rw [if_pos rfl]
  · exact shapeCast_apply x h (ix2 n (0 : Fin 1)) (ix3 (0 : Fin 1) n (0 : Fin 1)) (by
      rw [Shape.rowMajor_val_three, Shape.rowMajor_val_two]
      show (0 * 512 + n.val) * 1 + 0 = n.val * 1 + 0
      omega)

/-- A row `[1, 4864]` repeated down the 512 rows reads `(0, l)` at `(n, l)`. -/
private theorem lane_apply {α : Type} (x : S1x4864.Idx → α) (hb : S1x4864.Broadcasts S512x4864) (n : Fin 512) (l : Fin 4864) :
    broadcastTo S512x4864 x hb (ix2 n l) = x (ix2 (0 : Fin 1) l) :=
  broadcastTo_apply x hb (ix2 n l) (ix2 (0 : Fin 1) l) (fun a => by
    match a with
    | ⟨0, _⟩ => show 0 = if (1 : Nat) = 1 then 0 else n.val; rw [if_pos rfl]
    | ⟨1, _⟩ => show l.val = if (4864 : Nat) = 1 then 0 else l.val; rw [if_neg (by decide)])

/-- The tile's position words: the tile's base word plus the lane number. -/
private theorem pos_apply (w : BitVec 32) (hi : S1x4864.Iotas .tc 32 [1]) (hb : S1x4864.Broadcasts S512x4864) (n : Fin 512) (l : Fin 4864) :
    broadcastTo S512x4864 (addi (broadcast S1x4864 w) (iota .tc S1x4864 32 [1] hi)) hb (ix2 n l)
      = IntOp.addi w (BitVec.ofNat 32 l.val) := by
  rw [lane_apply]
  show IntOp.addi w (iota .tc S1x4864 32 [1] hi (ix2 (0 : Fin 1) l)) = _
  rw [iota_single_apply]

/-- The 0/1 matrix entry: the comparison's bit, widened, read signed, as an extended real: one where the two words agree. -/
private theorem onehot_apply (a b : IVec S512x4864 32) (h : 1 < 32) (hlt : FTy.bf16.bits < FTy.f32.bits) (j : S512x4864.Idx) :
    (truncf .bf16 (sitofp (F := Ideal) .f32 (extui 32 (cmpi .eq a b) h)) hlt : FVec Ideal S512x4864 .bf16) j
      = if a j = b j then 1 else 0 := by
  rw [truncf_apply, sitofp_apply, extui_apply]
  show ((((IntOp.cmpi .eq (a j) (b j)).setWidth 32).toInt : ℝ) : EReal) = _
  rw [Cert.EntityGrid.toInt_eq_word]
  by_cases hab : a j = b j
  · rw [if_pos hab, if_pos hab, Int.cast_one, EReal.coe_one]
  · rw [if_neg hab, if_neg hab, Int.cast_zero, EReal.coe_zero]

/-- The scattered block at channel `e`, lane `l'` of tile `i 1`: the sum of the scratch rows `n` (channel `e`) whose
    cell word is the tile's position word `(i 1) · 4864 + l'`. -/
theorem pay3_apply (i : grid0.Coords) (v7 : Vec Ideal S1x512x1 .i32) (v15 : Vec Ideal S512x32 .f32)
    (e : Fin 32) (l' : Fin 4864) :
    k0_pay3 (F := Ideal) i v7 v15 (ix3 (0 : Fin 1) e l')
      = ∑ n ∈ Finset.univ.filter (fun n : Fin 512 =>
          v7 (ix3 (0 : Fin 1) n (0 : Fin 1)) = IntOp.addi (IntOp.muli (BitVec.ofNat 32 (i 1).val) 4864#32) (BitVec.ofNat 32 l'.val)),
        v15 (ix2 n e) := by
  unfold k0_pay3
  rw [cast_out_apply, mm2_apply, Finset.sum_filter]
  refine Finset.sum_congr rfl fun n _ => ?_
  rw [truncf_apply, onehot_apply, cell_apply, pos_apply, mul_ite, mul_one, mul_zero]
  rfl

end Cert.KernelIdeal.Pay

end
-- ==== Proof.KValue.lean ====
/-
  The kernel's result array.

  Over the 160 grid points the scratch buffer holds, after every point of batch `b`, the projected embeddings of batch
  `b`: the batch's first tile stores them and the other four tiles leave them alone. So at every point the output block
  is: rows 0 to 47 the spatial block; row `48 + e`, lane `l'` the sum over the entities whose cell word equals the tile's
  position word `(t % 5) · 4864 + l'` of their projected embedding — that is, of the entities in that cell. Every point
  writes its block back, the blocks tile the flattened result `[32, 80, 24320]`, and the reshape after the region reads
  it as `[32, 80, 152, 160]`: the specification.
-/
import proofs.«407394_j85899345920647_2_alg».proof.Proof.KCases
import proofs.«407394_j85899345920647_2_alg».proof.Proof.KBlocks
import proofs.«407394_j85899345920647_2_alg».proof.Proof.KHost
import proofs.«407394_j85899345920647_2_alg».proof.Proof.KPay
import proofs.«407394_j85899345920647_2_alg».proof.Proof.Grid
import Idealize.ShloMosaic.Lib.Pipeline.Value
import Idealize.ShloMosaic.Lib.StableHlo.Run
import Idealize.ShloMosaic.Lib.Tactic

set_option maxRecDepth 16384

open scoped BigOperators

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Result

open Cert.KernelIdeal Cert.KernelIdeal.Gen Cert.KernelIdeal.Blocks Cert.KernelIdeal.Cases Cert.KernelIdeal.Host
  Cert.KernelIdeal.Pay Cert.EntityGrid

variable (m : (ℓ : Loc nD τ sig) → Buf (Elt Ideal) ℓ) (ρ : Dev nD → PrngReg)

/-! ## The arguments, as launched -/

abbrev a0 (c : Dev nD) : ShSp.Idx → EReal := m ((c : Thread nD τ).loc main_arg0)
abbrev a1 (c : Dev nD) : ShEmb.Idx → EReal := m ((c : Thread nD τ).loc main_arg1)
abbrev a2 (c : Dev nD) : ShMsk.Idx → EReal := m ((c : Thread nD τ).loc main_arg2)
abbrev a3 (c : Dev nD) : ShLoc.Idx → BitVec 32 := m ((c : Thread nD τ).loc main_arg3)
abbrev a4 (c : Dev nD) : ShW.Idx → EReal := m ((c : Thread nD τ).loc main_arg4)
abbrev a5 (c : Dev nD) : ShB.Idx → EReal := m ((c : Thread nD τ).loc main_arg5)

/-- The projected embeddings of batch `b`, as a `[512, 32]` block. -/
def projBlk (c : Dev nD) (b : Fin 32) : Vec Ideal S512x32 .f32 :=
  fun j => proj (a1 m c) (a4 m c) (a5 m c) (a2 m c) b (j 0) (j 1)

/-- The flattened result `[32, 80, 24320]`. -/
def flatArr (c : Dev nD) : Vec Ideal S32x80x24320 .f32 :=
  fun j => Gflat (a0 m c) (a1 m c) (a2 m c) (a3 m c) (a4 m c) (a5 m c) (j 0) (j 1) (j 2)

/-! ## The scratch over the grid -/

/-- The projection block a batch's first tile computes from its input blocks is the batch's projected embeddings. -/
theorem pay1_blk (c : Dev nD) (t : Fin cfg0.N) :
    k0_pay1 (F := Ideal) (embBlk m c t) (wBlk m c t) (bBlk m c t) (mskBlk m c t) = projBlk m c (batch t) := by
  funext j
  obtain ⟨n, e, rfl⟩ : ∃ (n : Fin 512) (e : Fin 32), j = ix2 n e := ⟨j 0, j 1, eq_ix2 j⟩
  refine (pay1_apply (embBlk m c t) (wBlk m c t) (bBlk m c t) (mskBlk m c t) n e).trans ?_
  have h1 : ∀ d : Fin 256, embBlk m c t (ix3 (0 : Fin 1) n d) = a1 m c (ix3 (batch t) n d) := fun d =>
    (embBlk_apply m c t n d).trans (congrFun (V_main_arg1 m c) _)
  have h2 : ∀ d : Fin 256, wBlk m c t (ix2 d e) = a4 m c (ix2 d e) := fun d =>
    (wBlk_apply m c t d e).trans (congrFun (V_main_arg4 m c) _)
  have h3 : bBlk m c t (ix1 e) = a5 m c (ix1 e) :=
    (bBlk_apply m c t e).trans (congrFun (V_main_arg5 m c) _)
  have h4 : mskBlk m c t (ix3 (0 : Fin 1) n (0 : Fin 1)) = a2 m c (ix2 (batch t) n) :=
    (mskBlk_apply m c t n).trans (mskArr_apply m c (batch t) n)
  have hs : (∑ d : Fin 256, embBlk m c t (ix3 (0 : Fin 1) n d) * wBlk m c t (ix2 d e))
      = ∑ d : Fin 256, a1 m c (ix3 (batch t) n d) * a4 m c (ix2 d e) :=
    Finset.sum_congr rfl fun d _ => congrArg₂ (· * ·) (h1 d) (h2 d)
  show _ = proj (a1 m c) (a4 m c) (a5 m c) (a2 m c) (batch t) n e
  unfold proj
  exact congrArg₂ (· * ·) (congrArg₂ max (congrArg₂ (· + ·) hs h3) rfl) h4

/-- The batch does not change inside a batch's five tiles. -/
theorem batch_pred (t : Fin cfg0.N) (h0 : ¬t.val % 5 = 0) (h' : t.val - 1 < cfg0.N) :
    batch ⟨t.val - 1, h'⟩ = batch t := by
  apply Fin.ext
  show (t.val - 1) / 5 = t.val / 5
  omega

/-- After every point the scratch holds the projected embeddings of the point's batch. -/
theorem scratch_eq (c : Dev nD) : ∀ (n : ℕ) (h : n < cfg0.N), (outsAt0 m c n h).2 = projBlk m c (batch ⟨n, h⟩)
  | n, h => by
    by_cases h0 : n % 5 = 0
    · rw [outsAt0_A m c ⟨n, h⟩ h0]
      dsimp only
      rw [sout_A]
      exact pay1_blk m c ⟨n, h⟩
    · have hn : n - 1 < cfg0.N := by omega
      rw [outsAt0_B m c ⟨n, h⟩ h0]
      dsimp only
      unfold sout0_B_0
      exact (scratch_eq c (n - 1) hn).trans (by rw [batch_pred ⟨n, h⟩ h0 hn])

/-- After every point the output block is the one of the point's spatial block, cell words and batch. -/
theorem out_eq (c : Dev nD) (t : Fin cfg0.N) :
    (outsAt0 m c t.val t.isLt).1 = outBlk (grid0.coords t) (spBlk m c t) (cellBlk m c t) (projBlk m c (batch t)) := by
  by_cases h0 : t.val % 5 = 0
  · rw [outsAt0_A m c t h0]
    dsimp only
    rw [out_A, pay1_blk]
  · have hn : t.val - 1 < cfg0.N := by have := t.isLt; omega
    rw [outsAt0_B m c t h0]
    dsimp only
    rw [out_B, scratch_eq m c (t.val - 1) hn, batch_pred t h0 hn]

/-! ## What a point writes back -/

/-- The output block at a point is the block of the flattened result at the point's batch and tile. -/
theorem outBlk_apply (c : Dev nD) (t : Fin cfg0.N) (ch : Fin 80) (l : Fin 4864) :
    outBlk (grid0.coords t) (spBlk m c t) (cellBlk m c t) (projBlk m c (batch t)) (ix3 (0 : Fin 1) ch l)
      = flatArr m c (ix3 (batch t) ch (cellAt t l)) := by
  show _ = Gflat (a0 m c) (a1 m c) (a2 m c) (a3 m c) (a4 m c) (a5 m c) (batch t) ch (cellAt t l)
  unfold Gflat
  by_cases hch : ch.val < 48
  · rw [dif_pos hch]
    refine (outBlk_lo (grid0.coords t) (spBlk m c t) (cellBlk m c t) (projBlk m c (batch t)) (⟨ch.val, hch⟩ : Fin 48) l).trans ?_
    rw [pay2_eq]
    exact (spBlk_apply m c t (⟨ch.val, hch⟩ : Fin 48) l).trans (spArr_apply m c (batch t) (⟨ch.val, hch⟩ : Fin 48) (cellAt t l))
  · rw [dif_neg hch]
    have hlt := ch.isLt
    have hhi := outBlk_hi (grid0.coords t) (spBlk m c t) (cellBlk m c t) (projBlk m c (batch t))
      (⟨ch.val - 48, by omega⟩ : Fin 32) l
    have e : (⟨48 + (ch.val - 48), by omega⟩ : Fin 80) = ch := Fin.ext (by show 48 + (ch.val - 48) = ch.val; omega)
    rw [e] at hhi
    refine hhi.trans ?_
    refine (pay3_apply (grid0.coords t) (cellBlk m c t) (projBlk m c (batch t)) (⟨ch.val - 48, by omega⟩ : Fin 32) l).trans ?_
    unfold scat
    have ht := (idx_facts t).2.2.2.2.2.2.2.2.2.2.2.2.2.2.2.2.2.2
    refine Finset.sum_congr (Finset.filter_congr fun n _ => ?_) fun n _ => rfl
    have hc : cellBlk m c t (ix3 (0 : Fin 1) n (0 : Fin 1)) = cellOf (a3 m c) (batch t) n :=
      (cellBlk_apply m c t n).trans (cellArr_apply m c (batch t) n)
    rw [hc, ht]
    have hl := l.isLt
    exact eq_posW_iff _ (cellW_lt _ _) (t.val % 5) l.val (by omega) hl

/-- WHAT POINT `t` WRITES BACK is block `t` of the flattened result. -/
theorem flushed_eq (c : Dev nD) (t : Fin cfg0.N) :
    (dats m 0 c).flushed 6 t = ((cfg0.win 6).blk t).view.read (Elt Ideal) (flatArr m c) := by
  show (cfg0.win 6).cut (grid0.coords t) ((dats m 0 c).after 6 t) = _
  rw [after0_6, out_eq]
  funext y
  obtain ⟨z, ch, l, rfl⟩ : ∃ (z : Fin 1) (ch : Fin 80) (l : Fin 4864), y = ix3 z ch l := ⟨y 0, y 1, y 2, eq_ix3 y⟩
  obtain rfl : z = 0 := Subsingleton.elim _ _
  show outBlk (grid0.coords t) (spBlk m c t) (cellBlk m c t) (projBlk m c (batch t)) (ix3 (0 : Fin 1) ch l)
    = flatArr m c (((cfg0.win 6).blk t).view.emb (ix3 (0 : Fin 1) ch l))
  rw [outBlk_apply]
  congr 1
  obtain ⟨_, _, _, _, _, _, _, _, _, _, _, _, _, _, _, q0, q1, q2, _⟩ := idx_facts t
  funext a; apply Fin.ext
  match a with
  | ⟨0, _⟩ => show t.val / 5 = win0_6.index t (0 : Fin 3) * 1 + 1 * 0; omega
  | ⟨1, _⟩ => show ch.val = win0_6.index t (1 : Fin 3) * 80 + 1 * ch.val; omega
  | ⟨2, _⟩ => show t.val % 5 * 4864 + l.val = win0_6.index t (2 : Fin 3) * 4864 + 1 * l.val; omega

/-- An index of the flattened result is in point `t`'s block iff each coordinate is in the block's range. -/
theorem mem_blk (t : Fin cfg0.N) (i : S32x80x24320.Idx) :
    i ∈ ((cfg0.win 6).blk t).view.set ↔ ∀ a : Fin 3, win0_6.index t a * S1x80x4864.size a ≤ (i a).val ∧ (i a).val < win0_6.index t a * S1x80x4864.size a + S1x80x4864.size a := by
  show i ∈ ((View.whole main_v12).slice (win0_6.rect t)).set ↔ _
  rw [View.set_slice_whole, Rect.mem_set_unit]
  exact Iff.rfl

/-- Every index of the flattened result is in the block of the point of its batch and tile. -/
theorem cover (c : Dev nD) (i : S32x80x24320.Idx) :
    ∃ t : Fin cfg0.N, (cfg0.win 6).flush t = true ∧ i ∈ ((cfg0.win 6).blk t).view.set := by
  have h0 : (i 0).val < 32 := (i 0).isLt
  have h1 : (i 1).val < 80 := (i 1).isLt
  have h2 : (i 2).val < 24320 := (i 2).isLt
  have hN := N160
  let t : Fin cfg0.N := ⟨(i 0).val * 5 + (i 2).val / 4864, by omega⟩
  refine ⟨t, flush0_6 t, ?_⟩
  rw [mem_blk]
  obtain ⟨_, _, _, _, _, _, _, _, _, _, _, _, _, _, _, q0, q1, q2, _⟩ := idx_facts t
  have tv : t.val = (i 0).val * 5 + (i 2).val / 4864 := rfl
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 80 ≤ (i 1).val ∧ (i 1).val < win0_6.index t (1 : Fin 3) * 80 + 80; omega
  | ⟨2, _⟩ => show win0_6.index t (2 : Fin 3) * 4864 ≤ (i 2).val ∧ (i 2).val < win0_6.index t (2 : Fin 3) * 4864 + 4864; omega

/-- The flattened result array after the run. -/
theorem final (c : Dev nD) : (dats m 0 c).arrAt 6 cfg0.N = flatArr m c :=
  (dats m 0 c).arrAt_eq_of_cover 6 (flatArr m c) (fun t _ => flushed_eq m c t) (cover c)

/-! ## The reshape after the region -/

/-- The result `[32, 80, 152, 160]` is the specification. -/
theorem tail_eq (c : Dev nD) :
    Pipeline.afterTail₀ cfgs (dats m) 0 (V0 m) [hostOps1] c main_v13
      = G (a0 m c) (a1 m c) (a2 m c) (a3 m c) (a4 m c) (a5 m c) := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12)
      = flatArr m c :=
    (Pipeline.withArrays_arr spec0 launch0.win.arr_inj c _ _ 6).trans (final m c)
  rw [hw]
  funext i
  obtain ⟨b, ch, y, x, rfl⟩ : ∃ (b : Fin 32) (ch : Fin 80) (y : Fin 152) (x : Fin 160), i = ix4 b ch y x :=
    ⟨i 0, i 1, i 2, i 3, eq_ix4 i⟩
  show shapeCast S32x80x152x160 (flatArr m c) Facts₀.shapeCasts_S32x80x24320_S32x80x152x160 (ix4 b ch y x) = _
  have hy := y.isLt
  have hx := x.isLt
  rw [shapeCast_apply (flatArr m c) _ (ix4 b ch y x) (ix3 b ch (⟨y.val * 160 + x.val, by omega⟩ : Fin 24320)) (by
    rw [Shape.rowMajor_val_three, Shape.rowMajor_val_four]
    show (b.val * 80 + ch.val) * 24320 + (y.val * 160 + x.val) = ((b.val * 80 + ch.val) * 152 + y.val) * 160 + x.val
    omega)]
  rfl

/-! ## The run, read -/

/-- Every weakly fair execution of the kernel's program terminates with the result at the specification's function of
    the arguments, and the arguments unchanged. -/
theorem run : θ_run defs (onTc (τ := τ) (main (F := Ideal))) ⟨m, fun _ => 0, ρ⟩ fun r => ∀ c : Dev nD,
      r.2.mem ((c.tc : Thread nD τ).loc main_v13) = G (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

end Cert.KernelIdeal.Result

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.RefSide.lean ====
/-
  The reference's result, read index by index, is the specification.

  Its first 48 channels are the spatial input's (the concatenation's first piece). Channel `48 + e` at `(y, x)` is, through
  the transpose and the reshape, row `(b · 152 + y) · 160 + x` of the scatter's table, column `e`: zero plus the update rows
  that land there, which are the entities of batch `b` in cell `y · 160 + x`.
-/
import proofs.«407394_j85899345920647_2_alg».proof.Proof.Gen.ReferenceIdeal.Read
import proofs.«407394_j85899345920647_2_alg».proof.Proof.LibGatherScatter
import proofs.«407394_j85899345920647_2_alg».proof.Proof.Grid

open scoped BigOperators

noncomputable section

namespace Cert.ReferenceIdeal.RefValue

open Cert.ReferenceIdeal Cert.ReferenceIdeal.Read Idealize.ShloMosaic Idealize.ShloMosaic.ValueIdx Cert.EntityGrid
open Idealize.ShloMosaic.RowOps Idealize.ShloMosaic.StableHlo.Predicate

/-! ## The projected embeddings -/

/-- Element `(b, n, e)` of the masked, rectified projection is the specification's projected embedding. -/
private theorem v7_at (x1 : (⟨S32x512x256, .f32⟩ : BufTy).Contents (Elt Ideal)) (x2 : (⟨S32x512, .f32⟩ : BufTy).Contents (Elt Ideal))
    (x4 : (⟨S256x32, .f32⟩ : BufTy).Contents (Elt Ideal)) (x5 : (⟨S32, .f32⟩ : BufTy).Contents (Elt Ideal)) (b : Fin 32) (n : Fin 512) (e : Fin 32) :
    val_main_v7 (F := Ideal) x1 x2 x4 x5 (ix3 b n e) = proj x1 x4 x5 x2 b n e := by
  rw [val_main_v7_apply, val_main_v4_apply, val_main_v3_apply, val_main_v0_apply, val_main_v2_apply, val_main_v1_apply,
    val_main_call0_v0_apply, val_main_call0_cst_apply, val_main_v6_apply, val_main_v5_apply]
  rw [Ideal.mulf_def, Ideal.maximumf_def, Ideal.addf_def, Ideal.ofBits_def, Ideal.ofBits_zero_f32]
  have e1 : idx_main_v1 (idx_main_v2 (ix3 b n e)) = ix1 e := funext fun a => by
    match a with
    | ⟨0, _⟩ => rfl
  have e2 : idx_main_v5 (idx_main_v6 (ix3 b n e)) = ix2 b n := funext fun a => by
    match a with
    | ⟨0, _⟩ => rfl
    | ⟨1, _⟩ => rfl
  have e3 : ∀ k : Fin 256, lidx_main_v0 (ix3 b n e) k = ix3 b n k := fun k => funext fun a => by
    match a with
    | ⟨0, _⟩ => rfl
    | ⟨1, _⟩ => rfl
    | ⟨2, _⟩ => rfl
  have e4 : ∀ k : Fin 256, ridx_main_v0 (ix3 b n e) k = ix2 k e := fun k => funext fun a => by
    match a with
    | ⟨0, _⟩ => rfl
    | ⟨1, _⟩ => rfl
  rw [e1, e2]
  simp only [e3, e4]
  rfl

/-- Update row `j = b · 512 + n`, column `e`, is the projected embedding of entity `n` of batch `b`. -/
private theorem v24_at (x1 : (⟨S32x512x256, .f32⟩ : BufTy).Contents (Elt Ideal)) (x2 : (⟨S32x512, .f32⟩ : BufTy).Contents (Elt Ideal))
    (x4 : (⟨S256x32, .f32⟩ : BufTy).Contents (Elt Ideal)) (x5 : (⟨S32, .f32⟩ : BufTy).Contents (Elt Ideal)) (j : Fin 16384) (e : Fin 32) :
    val_main_v24 (F := Ideal) x1 x2 x4 x5 (ix2 j e)
      = proj x1 x4 x5 x2 ⟨j.val / 512, by omega⟩ ⟨j.val % 512, by omega⟩ e := by
  have e0 : idx_main_v24 (ix2 j e) = ix3 (⟨j.val / 512, by omega⟩ : Fin 32) (⟨j.val % 512, by omega⟩ : Fin 512) e :=
    funext fun a => Fin.ext (by
      have hj := j.isLt
      have he := e.isLt
      match a with
      | ⟨0, _⟩ => show (j.val * 32 + e.val) / 16384 = j.val / 512; omega
      | ⟨1, _⟩ => show (j.val * 32 + e.val) / 32 % 512 = j.val % 512; omega
      | ⟨2, _⟩ => show (j.val * 32 + e.val) % 32 = e.val; omega)
  rw [val_main_v24_apply, e0, v7_at]

/-! ## The row words -/

/-- The cell word the reference computes for entity `n` of batch `b` is the specification's. -/
private theorem v16_at (x3 : (⟨S32x512x2, .i32⟩ : BufTy).Contents (Elt Ideal)) (b : Fin 32) (n : Fin 512) :
    val_main_v16 (F := Ideal) x3 (ix2 b n) = cellOf x3 b n := by
  rw [val_main_v16_apply, val_main_v15_apply, val_main_v10_apply, val_main_call1_v4_apply, val_main_call1_v3_apply,
    val_main_c_0_apply, val_main_call1_v2_apply, val_main_call1_v1_apply, val_main_call1_v0_apply, val_main_c_apply,
    val_main_v9_apply, val_main_v8_apply, val_main_v14_apply, val_main_c_3_apply,
    val_main_v13_apply, val_main_call2_v4_apply, val_main_call2_v3_apply, val_main_c_2_apply, val_main_call2_v2_apply,
    val_main_call2_v1_apply, val_main_call2_v0_apply, val_main_c_1_apply, val_main_v12_apply, val_main_v11_apply]
  have hq : (b.val * 512 + n.val) / 512 = b.val := by have := n.isLt; omega
  have hr : (b.val * 512 + n.val) / 1 % 512 = n.val := by have := n.isLt; omega
  have e0 : idx_main_v8 (idx_main_v9 (ix2 b n)) = ix3 b n (0 : Fin 2) := funext fun a => Fin.ext (by
    match a with
    | ⟨0, _⟩ => exact hq
    | ⟨1, _⟩ => exact hr
    | ⟨2, _⟩ => rfl)
  have e1 : idx_main_v11 (idx_main_v12 (ix2 b n)) = ix3 b n (1 : Fin 2) := funext fun a => Fin.ext (by
    match a with
    | ⟨0, _⟩ => exact hq
    | ⟨1, _⟩ => exact hr
    | ⟨2, _⟩ => rfl)
  rw [e0, e1]
  rfl

/-- The row word before the correction for negative indices: the cell word plus `b · 24320`. -/
private theorem v22_at (x3 : (⟨S32x512x2, .i32⟩ : BufTy).Contents (Elt Ideal)) (b : Fin 32) (n : Fin 512) :
    val_main_v22 (F := Ideal) x3 (ix2 b n)
      = IntOp.addi (cellOf x3 b n) (IntOp.muli (BitVec.ofNat 32 b.val) 24320#32) := by
  rw [val_main_v22_apply, v16_at, val_main_v21_apply, val_main_v20_apply, val_main_v19_apply, val_main_v17_apply,
    val_main_v18_apply, val_main_c_4_apply]

/-- Update row `j = b · 512 + n` is sent to row `cell b n + b · 24320`. -/
private theorem v31_at (x3 : (⟨S32x512x2, .i32⟩ : BufTy).Contents (Elt Ideal)) (j : Fin 16384) :
    (val_main_v31 (F := Ideal) x3 (ixP j)).toInt
      = ((cellOf x3 ⟨j.val / 512, by omega⟩ ⟨j.val % 512, by omega⟩).toNat + j.val / 512 * 24320 : Nat) := by
  have e0 : idx_main_v23 (idx_main_v31 (ixP j)) = ix2 (⟨j.val / 512, by omega⟩ : Fin 32) (⟨j.val % 512, by omega⟩ : Fin 512) :=
    funext fun a => Fin.ext (by
      match a with
      | ⟨0, _⟩ => rfl
      | ⟨1, _⟩ => rfl)
  rw [val_main_v31_apply, val_main_v30_apply, val_main_v27_apply, val_main_v29_apply, val_main_v26_apply,
    val_main_c_5_apply, val_main_v28_apply, val_main_c_6_apply, val_main_v23_apply, e0, v22_at]
  exact rowW_toInt _ (cellW_lt _ _) (j.val / 512) (by omega)

/-! ## The result at an index -/

/-- The specification at `(b, ch, y, x)` is its flattened form at cell `y · 160 + x`. -/
private theorem G_at (x0 : (⟨S32x48x152x160, .f32⟩ : BufTy).Contents (Elt Ideal)) (x1 : (⟨S32x512x256, .f32⟩ : BufTy).Contents (Elt Ideal))
    (x2 : (⟨S32x512, .f32⟩ : BufTy).Contents (Elt Ideal)) (x3 : (⟨S32x512x2, .i32⟩ : BufTy).Contents (Elt Ideal))
    (x4 : (⟨S256x32, .f32⟩ : BufTy).Contents (Elt Ideal)) (x5 : (⟨S32, .f32⟩ : BufTy).Contents (Elt Ideal))
    (b : Fin 32) (ch : Fin 80) (y : Fin 152) (x : Fin 160) :
    G x0 x1 x2 x3 x4 x5 (ix4 b ch y x)
      = Gflat x0 x1 x2 x3 x4 x5 b ch ⟨y.val * 160 + x.val, by have := y.isLt; have := x.isLt; omega⟩ := rfl

/-- A channel below 48 is the spatial input's. -/
private theorem left_at (x0 : (⟨S32x48x152x160, .f32⟩ : BufTy).Contents (Elt Ideal)) (x1 : (⟨S32x512x256, .f32⟩ : BufTy).Contents (Elt Ideal))
    (x2 : (⟨S32x512, .f32⟩ : BufTy).Contents (Elt Ideal)) (x3 : (⟨S32x512x2, .i32⟩ : BufTy).Contents (Elt Ideal))
    (x4 : (⟨S256x32, .f32⟩ : BufTy).Contents (Elt Ideal)) (x5 : (⟨S32, .f32⟩ : BufTy).Contents (Elt Ideal))
    (b : Fin 32) (ch : Fin 80) (y : Fin 152) (x : Fin 160) (h : ch.val < 48) :
    val_main_v35 (F := Ideal) x0 x1 x2 x3 x4 x5 (ix4 b ch y x) = x0 (ix4 b ⟨ch.val, h⟩ y x) := by
  unfold val_main_v35
  exact concatenate_pair_apply_left 1 x0 _ _ (ix4 b ch y x) rfl (ix4 b ⟨ch.val, h⟩ y x) (fun a => by
    match a with
    | ⟨0, _⟩ => rfl
    | ⟨1, _⟩ => rfl
    | ⟨2, _⟩ => rfl
    | ⟨3, _⟩ => rfl)

/-- A channel `48 + e` is the scatter's table at row `(b · 152 + y) · 160 + x`, column `e`. -/
private theorem right_at (x0 : (⟨S32x48x152x160, .f32⟩ : BufTy).Contents (Elt Ideal)) (x1 : (⟨S32x512x256, .f32⟩ : BufTy).Contents (Elt Ideal))
    (x2 : (⟨S32x512, .f32⟩ : BufTy).Contents (Elt Ideal)) (x3 : (⟨S32x512x2, .i32⟩ : BufTy).Contents (Elt Ideal))
    (x4 : (⟨S256x32, .f32⟩ : BufTy).Contents (Elt Ideal)) (x5 : (⟨S32, .f32⟩ : BufTy).Contents (Elt Ideal))
    (b : Fin 32) (ch : Fin 80) (y : Fin 152) (x : Fin 160) (h : ¬ ch.val < 48) :
    val_main_v35 (F := Ideal) x0 x1 x2 x3 x4 x5 (ix4 b ch y x)
      = val_main_v32 (F := Ideal) x1 x2 x3 x4 x5
          (ix2 (⟨(b.val * 152 + y.val) * 160 + x.val, by have := b.isLt; have := y.isLt; have := x.isLt; omega⟩ : Fin 778240)
            (⟨ch.val - 48, by have := ch.isLt; omega⟩ : Fin 32)) := by
  have hv : val_main_v35 (F := Ideal) x0 x1 x2 x3 x4 x5 (ix4 b ch y x)
      = val_main_v34 (F := Ideal) x1 x2 x3 x4 x5 (ix4 b (⟨ch.val - 48, by have := ch.isLt; omega⟩ : Fin 32) y x) := by
    unfold val_main_v35
    exact concatenate_pair_apply_right 1 x0 (val_main_v34 (F := Ideal) x1 x2 x3 x4 x5) _ (ix4 b ch y x) rfl rfl
      (ix4 b (⟨ch.val - 48, by have := ch.isLt; omega⟩ : Fin 32) y x) (fun a ha => by
        match a with
        | ⟨0, _⟩ => rfl
        | ⟨1, _⟩ => exact absurd rfl ha
        | ⟨2, _⟩ => rfl
        | ⟨3, _⟩ => rfl) (by show ch.val - 48 + 48 = ch.val; omega)
  have e0 : idx_main_v33 (idx_main_v34 (ix4 b (⟨ch.val - 48, by have := ch.isLt; omega⟩ : Fin 32) y x))
      = ix2 (⟨(b.val * 152 + y.val) * 160 + x.val, by have := b.isLt; have := y.isLt; have := x.isLt; omega⟩ : Fin 778240)
          (⟨ch.val - 48, by have := ch.isLt; omega⟩ : Fin 32) :=
    funext fun a => Fin.ext (by
      have hc := ch.isLt
      match a with
      | ⟨0, _⟩ => show (((b.val * 152 + y.val) * 160 + x.val) * 32 + (ch.val - 48)) / 32 = (b.val * 152 + y.val) * 160 + x.val; omega
      | ⟨1, _⟩ => show (((b.val * 152 + y.val) * 160 + x.val) * 32 + (ch.val - 48)) % 32 = ch.val - 48; omega)
  rw [hv, val_main_v34_apply, val_main_v33_apply, e0]

/-- Row `b · 24320 + l` of the scatter's table, column `e`: zero plus the update rows sent there, which are the
    projected embeddings of the entities of batch `b` in cell `l`. -/
private theorem v32_at (x1 : (⟨S32x512x256, .f32⟩ : BufTy).Contents (Elt Ideal)) (x2 : (⟨S32x512, .f32⟩ : BufTy).Contents (Elt Ideal))
    (x3 : (⟨S32x512x2, .i32⟩ : BufTy).Contents (Elt Ideal)) (x4 : (⟨S256x32, .f32⟩ : BufTy).Contents (Elt Ideal))
    (x5 : (⟨S32, .f32⟩ : BufTy).Contents (Elt Ideal)) (b : Fin 32) (l : Nat) (hl : l < 24320) (e : Fin 32) (r : Fin 778240)
    (hr : r.val = b.val * 24320 + l) :
    val_main_v32 (F := Ideal) x1 x2 x3 x4 x5 (ix2 r e) = scat x1 x4 x5 x2 x3 b e l := by
  unfold val_main_v32
  simp only [Host.scatterAdd]
  rw [Ideal.hostScatterAdd_def, scatterAdd_rows _ rfl rfl rfl rfl]
  have hz : val_main_v25 (F := Ideal) (ix2 r e) = 0 := by
    rw [val_main_v25_apply, val_main_cst_apply, Ideal.ofBits_def, Ideal.ofBits_zero_f32]
  rw [hz, zero_add]
  unfold scat
  rw [← sum_landing_rows (fun b n => (cellOf x3 b n).toNat) (fun b n => cellW_lt _ _)
    (fun b n => proj x1 x4 x5 x2 b n e) b l hl]
  refine Finset.sum_congr (Finset.filter_congr fun j _ => ?_) fun j _ => v24_at x1 x2 x4 x5 j e
  unfold lands
  rw [v31_at, hr]
  exact Nat.cast_inj

/-- The reference's result is the specification's function of the six arguments. -/
theorem ref_eq (x0 : (⟨S32x48x152x160, .f32⟩ : BufTy).Contents (Elt Ideal)) (x1 : (⟨S32x512x256, .f32⟩ : BufTy).Contents (Elt Ideal))
    (x2 : (⟨S32x512, .f32⟩ : BufTy).Contents (Elt Ideal)) (x3 : (⟨S32x512x2, .i32⟩ : BufTy).Contents (Elt Ideal))
    (x4 : (⟨S256x32, .f32⟩ : BufTy).Contents (Elt Ideal)) (x5 : (⟨S32, .f32⟩ : BufTy).Contents (Elt Ideal)) :
    val_main_v35 (F := Ideal) x0 x1 x2 x3 x4 x5 = G x0 x1 x2 x3 x4 x5 := by
  funext i
  obtain ⟨b, ch, y, x, rfl⟩ : ∃ (b : Fin 32) (ch : Fin 80) (y : Fin 152) (x : Fin 160), i = ix4 b ch y x :=
    ⟨i 0, i 1, i 2, i 3, eq_ix4 i⟩
  have hy := y.isLt
  have hx := x.isLt
  rw [G_at]
  unfold Gflat
  by_cases h : ch.val < 48
  · rw [left_at x0 x1 x2 x3 x4 x5 b ch y x h, dif_pos h]
    congr 1
    funext a
    apply Fin.ext
    match a with
    | ⟨0, _⟩ => rfl
    | ⟨1, _⟩ => rfl
    | ⟨2, _⟩ => show y.val = (y.val * 160 + x.val) / 160; omega
    | ⟨3, _⟩ => show x.val = (y.val * 160 + x.val) % 160; omega
  · rw [right_at x0 x1 x2 x3 x4 x5 b ch y x h, dif_neg h]
    exact v32_at x1 x2 x3 x4 x5 b (y.val * 160 + x.val) (by omega) _ _ (by
      show (b.val * 152 + y.val) * 160 + x.val = b.val * 24320 + (y.val * 160 + x.val); omega)

end Cert.ReferenceIdeal.RefValue

end
-- ==== Proof.lean ====
/-
  A fused "project and scatter" kernel against its jnp reference.

  Inputs: a spatial map `[32, 48, 152, 160]`, per batch 512 entity embeddings `[32, 512, 256]` with a mask `[32, 512]` and
  integer locations `[32, 512, 2]`, a projection `[256, 32]` and a bias `[32]`. Both programs project every embedding,
  `p[b,n,e] = max (∑ d, emb[b,n,d] · W[d,e] + bias[e]) 0 · mask[b,n]`, send entity `n` of batch `b` to the grid cell
  `clamp(row) · 160 + clamp(column)`, add the projections of the entities of a cell, and put the 32 summed channels after
  the 48 spatial ones: `[32, 80, 152, 160]`.

  The reference adds by a scatter-add into a table of `32 · 24320` rows at the row `cell + b · 24320`. The kernel runs over
  a grid of 32 batches × 5 tiles of 4864 cells: the first tile of a batch computes the projections into a buffer it keeps
  for the batch's other tiles, and every tile multiplies them (transposed) with the 0/1 matrix "entity `n` is in cell `l`".
  Over the extended reals both are the same finite sum: a product with 0 is 0 and with 1 the factor itself, for every
  extended real, so the matrix product is the sum over the entities in the cell; and the words never wrap, so the
  reference's rows `cell + b · 24320` separate the batches. No finiteness of the inputs is used.

  The frames of the two kernel programs are the generated ones; the reference's frame is its generated run. The modules:
  Grid (the specification and the word arithmetic), KPay (the body's stored values at an index), KCases (what one run of
  the body leaves), KBlocks (where a point's blocks sit), KHost (the arrays @main prepares), KValue (the kernel's result
  array), RefSide (the reference's result).
-/
import proofs.«407394_j85899345920647_2_alg».proof.Defs
import proofs.«407394_j85899345920647_2_alg».proof.Proof.Gen.Kernel
import proofs.«407394_j85899345920647_2_alg».proof.Proof.Gen.Kernel.Skeleton
import proofs.«407394_j85899345920647_2_alg».proof.Proof.Gen.Kernel.Launch
import proofs.«407394_j85899345920647_2_alg».proof.Proof.Gen.Kernel.Points
import proofs.«407394_j85899345920647_2_alg».proof.Proof.Gen.Kernel.Frame
import proofs.«407394_j85899345920647_2_alg».proof.Proof.Gen.KernelIdeal
import proofs.«407394_j85899345920647_2_alg».proof.Proof.Gen.KernelIdeal.Skeleton
import proofs.«407394_j85899345920647_2_alg».proof.Proof.Gen.KernelIdeal.Launch
import proofs.«407394_j85899345920647_2_alg».proof.Proof.Gen.KernelIdeal.Points
import proofs.«407394_j85899345920647_2_alg».proof.Proof.Gen.KernelIdeal.Frame
import proofs.«407394_j85899345920647_2_alg».proof.Proof.Gen.ReferenceIdeal
import proofs.«407394_j85899345920647_2_alg».proof.Proof.Gen.ReferenceIdeal.Run
import proofs.«407394_j85899345920647_2_alg».proof.Proof.Gen.ReferenceIdeal.Read
import proofs.«407394_j85899345920647_2_alg».proof.Proof.Gen.Pre_finite_inputs
import proofs.«407394_j85899345920647_2_alg».proof.Proof.KValue
import proofs.«407394_j85899345920647_2_alg».proof.Proof.RefSide
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments alone: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- Over the extended reals the kernel's result and the reference's are the specification's function of arguments that
    agree. -/
theorem algebraic : Cert.algebraic_KernelIdeal_ReferenceIdeal := by
  intro m ρ m' ρ' _ hagree
  refine ⟨fun c => Cert.EntityGrid.G (Cert.KernelIdeal.Result.a0 m c) (Cert.KernelIdeal.Result.a1 m c)
      (Cert.KernelIdeal.Result.a2 m c) (Cert.KernelIdeal.Result.a3 m c) (Cert.KernelIdeal.Result.a4 m c)
      (Cert.KernelIdeal.Result.a5 m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.ref_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
